-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x16 : Shape := ⟨2, ![1024, 16]⟩
abbrev S1024x16x128 : Shape := ⟨3, ![1024, 16, 128]⟩
abbrev S1000x128 : Shape := ⟨2, ![1000, 128]⟩
abbrev S256x256 : Shape := ⟨2, ![256, 256]⟩
abbrev S256 : Shape := ⟨1, ![256]⟩
abbrev S512x512 : Shape := ⟨2, ![512, 512]⟩
abbrev S512 : Shape := ⟨1, ![512]⟩
abbrev S_ : Shape := ⟨0, ![]⟩

class Facts : Prop where
  bcast_S_S1024x16x128 : S_.BroadcastsInDim S1024x16x128 (![] : Fin 0 → Fin S1024x16x128.rank)
  reducesTo_S1024x16x128_S_d0_1_2 : S1024x16x128.ReducesTo [0, 1, 2] S_
  h_S_ : 0 < S_.numel
  bcast_S_S1000x128 : S_.BroadcastsInDim S1000x128 (![] : Fin 0 → Fin S1000x128.rank)
  reducesTo_S1000x128_S_d0_1 : S1000x128.ReducesTo [0, 1] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_

variable [Facts]

def fn_part3 {F : FTy → Type} [FloatOps F] (main_v48 : IVec S_ 1) (main_v50 : FVec F S256 .f32) : IVec S_ 1 :=
  let main_cst_19 : FVec F S_ .f32 := constant S_ .f32 0x00000000#32
  let main_v51 : FVec F S256 .f32 := broadcastInDim S256 ![] bcast_S_S256 main_cst_19
  let main_v52 : IVec S256 1 := cmpf .ogt main_v50 main_v51
  let main_c_20 : IVec S_ 1 := constantI S_ 1 1#1
  let main_v53 : IVec S_ 1 := (fun x v => Host.reduce IntOp.andi x v reducesTo_S256_S_d0 h_S_) main_v52 main_c_20
  let main_v54 : IVec S_ 1 := andi main_v48 main_v53
  main_v54

def fn_part2 {F : FTy → Type} [FloatOps F] (main_arg8 : FVec F S256 .f32) (main_arg9 : FVec F S512x512 .f32) (main_arg10 : FVec F S512 .f32) (main_v33 : IVec S_ 1) : IVec S_ 1 :=
  let main_v34 : FVec F S256 .f32 := Host.absf main_arg8
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S512x512 .f32 := Host.absf main_arg9
  let main_cst_14 : FVec F S_ .f32 := constant S_ .f32 0x7F800000#32
  let main_v40 : FVec F S512x512 .f32 := broadcastInDim S512x512 ![] bcast_S_S512x512 main_cst_14
  let main_v41 : IVec S512x512 1 := cmpf .olt main_v39 main_v40
  let main_c_15 : IVec S_ 1 := constantI S_ 1 1#1
  let main_v42 : IVec S_ 1 := (fun x v => Host.reduce IntOp.andi x v reducesTo_S512x512_S_d0_1 h_S_) main_v41 main_c_15
  let main_v43 : IVec S_ 1 := andi main_v38 main_v42
  let main_v44 : FVec F S512 .f32 := Host.absf main_arg10
  let main_cst_16 : FVec F S_ .f32 := constant S_ .f32 0x7F800000#32
  let main_v45 : FVec F S512 .f32 := broadcastInDim S512 ![] bcast_S_S512 main_cst_16
  let main_v46 : IVec S512 1 := cmpf .olt main_v44 main_v45
  let main_c_17 : IVec S_ 1 := constantI S_ 1 1#1
  let main_v47 : IVec S_ 1 := (fun x v => Host.reduce IntOp.andi x v reducesTo_S512_S_d0 h_S_) main_v46 main_c_17
  let main_v48 : IVec S_ 1 := andi main_v43 main_v47
  let main_cst_18 : FVec F S_ .f32 := constant S_ .f32 0x3727C5AC#32
  let main_v49 : FVec F S256 .f32 := broadcastInDim S256 ![] bcast_S_S256 main_cst_18
  let main_v50 : FVec F S256 .f32 := addf main_arg8 main_v49
  fn_part3 (F := F) main_v48 main_v50

def fn_part1 {F : FTy → Type} [FloatOps F] (main_arg5 : FVec F S256 .f32) (main_arg6 : FVec F S256 .f32) (main_arg7 : FVec F S256 .f32) (main_arg8 : FVec F S256 .f32) (main_arg9 : FVec F S512x512 .f32) (main_arg10 : FVec F S512 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256 .f32 := Host.absf main_arg5
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256 .f32 := Host.absf main_arg6
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256 .f32 := Host.absf main_arg7
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg8 main_arg9 main_arg10 main_v33

def fn {F : FTy → Type} [FloatOps F] (main_arg0 : IVec S1024x16 32) (main_arg1 : FVec F S1024x16x128 .f32) (main_arg2 : FVec F S1000x128 .f32) (main_arg3 : FVec F S256x256 .f32) (main_arg4 : FVec F S256 .f32) (main_arg5 : FVec F S256 .f32) (main_arg6 : FVec F S256 .f32) (main_arg7 : FVec F S256 .f32) (main_arg8 : FVec F S256 .f32) (main_arg9 : FVec F S512x512 .f32) (main_arg10 : FVec F S512 .f32) : IVec S_ 1 :=
  let main_v0 : FVec F S1024x16x128 .f32 := Host.absf main_arg1
  let main_cst : FVec F S_ .f32 := constant S_ .f32 0x7F800000#32
  let main_v1 : FVec F S1024x16x128 .f32 := broadcastInDim S1024x16x128 ![] bcast_S_S1024x16x128 main_cst
  let main_v2 : IVec S1024x16x128 1 := cmpf .olt main_v0 main_v1
  let main_c : IVec S_ 1 := constantI S_ 1 1#1
  let main_v3 : IVec S_ 1 := (fun x v => Host.reduce IntOp.andi x v reducesTo_S1024x16x128_S_d0_1_2 h_S_) main_v2 main_c
  let main_v4 : FVec F S1000x128 .f32 := Host.absf main_arg2
  let main_cst_0 : FVec F S_ .f32 := constant S_ .f32 0x7F800000#32
  let main_v5 : FVec F S1000x128 .f32 := broadcastInDim S1000x128 ![] bcast_S_S1000x128 main_cst_0
  let main_v6 : IVec S1000x128 1 := cmpf .olt main_v4 main_v5
  let main_c_1 : IVec S_ 1 := constantI S_ 1 1#1
  let main_v7 : IVec S_ 1 := (fun x v => Host.reduce IntOp.andi x v reducesTo_S1000x128_S_d0_1 h_S_) main_v6 main_c_1
  let main_v8 : IVec S_ 1 := andi main_v3 main_v7
  let main_v9 : FVec F S256x256 .f32 := Host.absf main_arg3
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256 .f32 := Host.absf main_arg4
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg5 main_arg6 main_arg7 main_arg8 main_arg9 main_arg10 main_v13 main_v16
-- ==== Kernel.lean ====
abbrev S1024x16 : Shape := ⟨2, ![1024, 16]⟩
abbrev S1024x16x128 : Shape := ⟨3, ![1024, 16, 128]⟩
abbrev S1000x128 : Shape := ⟨2, ![1000, 128]⟩
abbrev S256x256 : Shape := ⟨2, ![256, 256]⟩
abbrev S256 : Shape := ⟨1, ![256]⟩
abbrev S512x512 : Shape := ⟨2, ![512, 512]⟩
abbrev S512 : Shape := ⟨1, ![512]⟩
abbrev S_ : Shape := ⟨0, ![]⟩
abbrev S1024x16x1 : Shape := ⟨3, ![1024, 16, 1]⟩
abbrev S256x128 : Shape := ⟨2, ![256, 128]⟩
abbrev S128x256 : Shape := ⟨2, ![128, 256]⟩
abbrev S512x256 : Shape := ⟨2, ![512, 256]⟩
abbrev S256x512 : Shape := ⟨2, ![256, 512]⟩
abbrev S1024x512 : Shape := ⟨2, ![1024, 512]⟩
abbrev S64x16x128 : Shape := ⟨3, ![64, 16, 128]⟩
abbrev S64x512 : Shape := ⟨2, ![64, 512]⟩
abbrev S1024x128 : Shape := ⟨2, ![1024, 128]⟩
abbrev S1024x256 : Shape := ⟨2, ![1024, 256]⟩
abbrev S1x256 : Shape := ⟨2, ![1, 256]⟩
abbrev S64x16x512 : Shape := ⟨3, ![64, 16, 512]⟩
abbrev S64x1x512 : Shape := ⟨3, ![64, 1, 512]⟩
abbrev S1x1x512 : Shape := ⟨3, ![1, 1, 512]⟩

abbrev nBuf : Space → Nat
  | .hbm => 42
  | .vmem => 14
  | .smem => 0
  | _ => 0

abbrev bufTy : (tb : Table) → Fin (tcTables nBuf tb) → BufTy
  | .hbm, ⟨0, _⟩ => ⟨S1024x16, .i32⟩
  | .hbm, ⟨1, _⟩ => ⟨S1024x16x128, .f32⟩
  | .hbm, ⟨2, _⟩ => ⟨S1000x128, .f32⟩
  | .hbm, ⟨3, _⟩ => ⟨S256x256, .f32⟩
  | .hbm, ⟨4, _⟩ => ⟨S256, .f32⟩
  | .hbm, ⟨5, _⟩ => ⟨S256, .f32⟩
  | .hbm, ⟨6, _⟩ => ⟨S256, .f32⟩
  | .hbm, ⟨7, _⟩ => ⟨S256, .f32⟩
  | .hbm, ⟨8, _⟩ => ⟨S256, .f32⟩
  | .hbm, ⟨9, _⟩ => ⟨S512x512, .f32⟩
  | .hbm, ⟨10, _⟩ => ⟨S512, .f32⟩
  | .hbm, ⟨11, _⟩ => ⟨S_, .i32⟩
  | .hbm, ⟨12, _⟩ => ⟨S1024x16, .i32⟩
  | .hbm, ⟨13, _⟩ => ⟨S1024x16, .i1⟩
  | .hbm, ⟨14, _⟩ => ⟨S_, .i32⟩
  | .hbm, ⟨15, _⟩ => ⟨S1024x16, .i32⟩
  | .hbm, ⟨16, _⟩ => ⟨S1024x16, .i32⟩
  | .hbm, ⟨17, _⟩ => ⟨S1024x16, .i32⟩
  | .hbm, ⟨18, _⟩ => ⟨S1024x16x1, .i32⟩
  | .hbm, ⟨19, _⟩ => ⟨S1024x16x128, .f32⟩
  | .hbm, ⟨20, _⟩ => ⟨S1024x16x128, .bf16⟩
  | .hbm, ⟨21, _⟩ => ⟨S1024x16x128, .bf16⟩
  | .hbm, ⟨22, _⟩ => ⟨S256x128, .f32⟩
  | .hbm, ⟨23, _⟩ => ⟨S128x256, .f32⟩
  | .hbm, ⟨24, _⟩ => ⟨S128x256, .bf16⟩
  | .hbm, ⟨25, _⟩ => ⟨S256x128, .f32⟩
  | .hbm, ⟨26, _⟩ => ⟨S128x256, .f32⟩
  | .hbm, ⟨27, _⟩ => ⟨S128x256, .bf16⟩
  | .hbm, ⟨28, _⟩ => ⟨S_, .f32⟩
  | .hbm, ⟨29, _⟩ => ⟨S256, .f32⟩
  | .hbm, ⟨30, _⟩ => ⟨S256, .f32⟩
  | .hbm, ⟨31, _⟩ => ⟨S256, .f32⟩
  | .hbm, ⟨32, _⟩ => ⟨S256, .f32⟩
  | .hbm, ⟨33, _⟩ => ⟨S256, .f32⟩
  | .hbm, ⟨34, _⟩ => ⟨S256, .f32⟩
  | .hbm, ⟨35, _⟩ => ⟨S512x256, .f32⟩
  | .hbm, ⟨36, _⟩ => ⟨S512x256, .f32⟩
  | .hbm, ⟨37, _⟩ => ⟨S256x512, .f32⟩
  | .hbm, ⟨38, _⟩ => ⟨S256x512, .bf16⟩
  | .hbm, ⟨39, _⟩ => ⟨S256x512, .f32⟩
  | .hbm, ⟨40, _⟩ => ⟨S256x512, .bf16⟩
  | .hbm, ⟨41, _⟩ => ⟨S1024x512, .f32⟩
  | .local _ .vmem, ⟨0, _⟩ => ⟨S64x16x128, .bf16⟩
  | .local _ .vmem, ⟨1, _⟩ => ⟨S64x16x128, .bf16⟩
  | .local _ .vmem, ⟨2, _⟩ => ⟨S64x16x128, .bf16⟩
  | .local _ .vmem, ⟨3, _⟩ => ⟨S64x16x128, .bf16⟩
  | .local _ .vmem, ⟨4, _⟩ => ⟨S128x256, .bf16⟩
  | .local _ .vmem, ⟨5, _⟩ => ⟨S128x256, .bf16⟩
  | .local _ .vmem, ⟨6, _⟩ => ⟨S256, .f32⟩
  | .local _ .vmem, ⟨7, _⟩ => ⟨S256, .f32⟩
  | .local _ .vmem, ⟨8, _⟩ => ⟨S256, .f32⟩
  | .local _ .vmem, ⟨9, _⟩ => ⟨S256x512, .bf16⟩
  | .local _ .vmem, ⟨10, _⟩ => ⟨S256x512, .bf16⟩
  | .local _ .vmem, ⟨11, _⟩ => ⟨S512, .f32⟩
  | .local _ .vmem, ⟨12, _⟩ => ⟨S64x512, .f32⟩
  | .local _ .vmem, ⟨13, _⟩ => ⟨S64x512, .f32⟩
  | _, _ => ⟨S1024x16, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_v0 : Ref sig .tc := ⟨.hbm, 12, rfl⟩
abbrev main_v1 : Ref sig .tc := ⟨.hbm, 13, rfl⟩
abbrev main_c_0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x16x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x16x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S64x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

class Facts₀ : Prop where
  bcast_S_S1024x16 : S_.BroadcastsInDim S1024x16 (![] : Fin 0 → Fin S1024x16.rank)
  bcast_S1024x16_S1024x16x1_0_1 : S1024x16.BroadcastsInDim S1024x16x1 (![0, 1] : Fin 2 → Fin S1024x16x1.rank)
  bitsLt_bf16_f32 : FTy.bits .bf16 < FTy.bits .f32
  slices_S256x256_S256x128_0_0 : S256x256.Slices ![0, 0] S256x128
  transposes_S256x128_S128x256_1_0 : S256x128.Transposes [1, 0] S128x256
  slices_S256x256_S256x128_0_128 : S256x256.Slices ![0, 128] S256x128
  bcast_S_S256 : S_.BroadcastsInDim S256 (![] : Fin 0 → Fin S256.rank)
  slices_S512x512_S512x256_0_0 : S512x512.Slices ![0, 0] S512x256
  slices_S512x512_S512x256_0_256 : S512x512.Slices ![0, 256] S512x256
  transposes_S512x256_S256x512_1_0 : S512x256.Transposes [1, 0] S256x512
  inb_S64x16x128_S64x16x128_0_0_0 : ∀ a, (![0, 0, 0] : Fin 3 → Nat) a + S64x16x128.size a ≤ S64x16x128.size a
  h_S64x16x128 : 0 < S64x16x128.numel
  shapeCasts_S64x16x128_S64x16x128 : S64x16x128.ShapeCasts S64x16x128
  shapeCasts_S64x16x128_S1024x128 : S64x16x128.ShapeCasts S1024x128
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S256_S256_0 : ∀ a, (![0] : Fin 1 → Nat) a + S256.size a ≤ S256.size a
  h_S256 : 0 < S256.numel
  shapeCasts_S256_S1x256 : S256.ShapeCasts S1x256
  broadcasts_S1x256_S1024x256 : S1x256.Broadcasts S1024x256
  shapeCasts_S256_S256 : S256.ShapeCasts S256
  inb_S256x512_S256x512_0_0 : ∀ a, (![0, 0] : Fin 2 → Nat) a + S256x512.size a ≤ S256x512.size a
  h_S256x512 : 0 < S256x512.numel
  shapeCasts_S256x512_S256x512 : S256x512.ShapeCasts S256x512
  shapeCasts_S1024x512_S64x16x512 : S1024x512.ShapeCasts S64x16x512
  inb_S512_S512_0 : ∀ a, (![0] : Fin 1 → Nat) a + S512.size a ≤ S512.size a
  h_S512 : 0 < S512.numel
  slices_S64x16x512_o0_0_0_S64x1x512 : S64x16x512.Slices ![0, 0, 0] S64x1x512
  shapeCasts_S64x1x512_S64x512 : S64x1x512.ShapeCasts S64x512
  shapeCasts_S64x512_S64x1x512 : S64x512.ShapeCasts S64x1x512
  broadcasts_S64x1x512_S64x16x512 : S64x1x512.Broadcasts S64x16x512
  shapeCasts_S512_S1x1x512 : S512.ShapeCasts S1x1x512
  broadcasts_S1x1x512_S64x16x512 : S1x1x512.Broadcasts S64x16x512
  reduces_S64x16x512_S64x512 : S64x16x512.Reduces [1] S64x512
  slices_S64x16x512_o0_1_0_S64x1x512 : S64x16x512.Slices ![0, 1, 0] S64x1x512
  slices_S64x16x512_o0_2_0_S64x1x512 : S64x16x512.Slices ![0, 2, 0] S64x1x512
  slices_S64x16x512_o0_3_0_S64x1x512 : S64x16x512.Slices ![0, 3, 0] S64x1x512
  slices_S64x16x512_o0_4_0_S64x1x512 : S64x16x512.Slices ![0, 4, 0] S64x1x512
  slices_S64x16x512_o0_5_0_S64x1x512 : S64x16x512.Slices ![0, 5, 0] S64x1x512
  slices_S64x16x512_o0_6_0_S64x1x512 : S64x16x512.Slices ![0, 6, 0] S64x1x512
  slices_S64x16x512_o0_7_0_S64x1x512 : S64x16x512.Slices ![0, 7, 0] S64x1x512
  slices_S64x16x512_o0_8_0_S64x1x512 : S64x16x512.Slices ![0, 8, 0] S64x1x512
  slices_S64x16x512_o0_9_0_S64x1x512 : S64x16x512.Slices ![0, 9, 0] S64x1x512
  slices_S64x16x512_o0_10_0_S64x1x512 : S64x16x512.Slices ![0, 10, 0] S64x1x512
  slices_S64x16x512_o0_11_0_S64x1x512 : S64x16x512.Slices ![0, 11, 0] S64x1x512
  slices_S64x16x512_o0_12_0_S64x1x512 : S64x16x512.Slices ![0, 12, 0] S64x1x512
  slices_S64x16x512_o0_13_0_S64x1x512 : S64x16x512.Slices ![0, 13, 0] S64x1x512
  slices_S64x16x512_o0_14_0_S64x1x512 : S64x16x512.Slices ![0, 14, 0] S64x1x512
  slices_S64x16x512_o0_15_0_S64x1x512 : S64x16x512.Slices ![0, 15, 0] S64x1x512
  inb_S64x512_S64x512_0_0 : ∀ a, (![0, 0] : Fin 2 → Nat) a + S64x512.size a ≤ S64x512.size a
  h_S64x512 : 0 < S64x512.numel
  gather_S1000x128_S1024x16x1_S1024x16x128_2_0_n_n_0_2_1128_wf : GatherDims.WF S1000x128 S1024x16x1 S1024x16x128 [2] [0] [] [0] [] 2 ![1, 128]
  dot_S1024x128_S128x256_S1024x256_1_0_0_1_n_n_wf : DotDims.WF S1024x128 S128x256 S1024x256 [1] [0] [0] [1] [] []
  dot_S1024x256_S256x512_S1024x512_1_0_0_1_n_n_wf : DotDims.WF S1024x256 S256x512 S1024x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x16x128.size a ≤ S1024x16x128.size a
  hwx0_0 : ∀ i : grid0.Coords, EltTy.bits .bf16 = 32 ∨ (Rect.block (s := S1024x16x128) S64x16x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S64x16x128.size a ≤ S1024x16x128.size a
  hwx0_1 : ∀ i : grid0.Coords, EltTy.bits .bf16 = 32 ∨ (Rect.block (s := S1024x16x128) S64x16x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x256.size a ≤ S128x256.size a
  hwx0_2 : ∀ i : grid0.Coords, EltTy.bits .bf16 = 32 ∨ (Rect.block (s := S128x256) S128x256.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x256.size a ≤ S128x256.size a
  hwx0_3 : ∀ i : grid0.Coords, EltTy.bits .bf16 = 32 ∨ (Rect.block (s := S128x256) S128x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256.size a ≤ S256.size a
  hwx0_4 : ∀ i : grid0.Coords, EltTy.bits .f32 = 32 ∨ (Rect.block (s := S256) S256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256.size a ≤ S256.size a
  hwx0_5 : ∀ i : grid0.Coords, EltTy.bits .f32 = 32 ∨ (Rect.block (s := S256) S256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256.size a ≤ S256.size a
  hwx0_6 : ∀ i : grid0.Coords, EltTy.bits .f32 = 32 ∨ (Rect.block (s := S256) S256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S256x512.size a ≤ S256x512.size a
  hwx0_7 : ∀ i : grid0.Coords, EltTy.bits .bf16 = 32 ∨ (Rect.block (s := S256x512) S256x512.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S256x512.size a ≤ S256x512.size a
  hwx0_8 : ∀ i : grid0.Coords, EltTy.bits .bf16 = 32 ∨ (Rect.block (s := S256x512) S256x512.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S512.size a ≤ S512.size a
  hwx0_9 : ∀ i : grid0.Coords, EltTy.bits .f32 = 32 ∨ (Rect.block (s := S512) S512.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S64x512.size a ≤ S1024x512.size a
  hwx0_10 : ∀ i : grid0.Coords, EltTy.bits .f32 = 32 ∨ (Rect.block (s := S1024x512) S64x512.size (cc0_transform_10 i) (hinb0_10 i)).WholeWords (EltTy.packing .f32)

variable [Facts₀]

def gather_S1000x128_S1024x16x1_S1024x16x128_2_0_n_n_0_2_1128 : GatherDims S1000x128 S1024x16x1 S1024x16x128 where
  offsetDims := [2]
  collapsedSliceDims := [0]
  operandBatchingDims := []
  startIndicesBatchingDims := []
  startIndexMap := [0]
  indexVectorDim := 2
  sliceSizes := ![1, 128]
  wf := gather_S1000x128_S1024x16x1_S1024x16x128_2_0_n_n_0_2_1128_wf
def dot_S1024x128_S128x256_S1024x256_1_0_0_1_n_n : DotDims S1024x128 S128x256 S1024x256 where
  lhsContracting := [1]
  rhsContracting := [0]
  lhsNonContracting := [0]
  rhsNonContracting := [1]
  lhsBatch := []
  rhsBatch := []
  wf := dot_S1024x128_S128x256_S1024x256_1_0_0_1_n_n_wf
def dot_S1024x256_S256x512_S1024x512_1_0_0_1_n_n : DotDims S1024x256 S256x512 S1024x512 where
  lhsContracting := [1]
  rhsContracting := [0]
  lhsNonContracting := [0]
  rhsNonContracting := [1]
  lhsBatch := []
  rhsBatch := []
  wf := dot_S1024x256_S256x512_S1024x512_1_0_0_1_n_n_wf

abbrev win0_0 : Pipeline.Window sig grid0 :=
  Pipeline.Window.ofSpec (Memref.whole main_v7) S64x16x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S64x16x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v11) S128x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S128x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v18) S256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v20) S256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v24) S256x512.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v26) S256x512.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg10) S512.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v27) S64x512.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== ReferenceIdeal.lean ====
abbrev S1024x16 : Shape := ⟨2, ![1024, 16]⟩
abbrev S1024x16x128 : Shape := ⟨3, ![1024, 16, 128]⟩
abbrev S1000x128 : Shape := ⟨2, ![1000, 128]⟩
abbrev S256x256 : Shape := ⟨2, ![256, 256]⟩
abbrev S256 : Shape := ⟨1, ![256]⟩
abbrev S512x512 : Shape := ⟨2, ![512, 512]⟩
abbrev S512 : Shape := ⟨1, ![512]⟩
abbrev S_ : Shape := ⟨0, ![]⟩
abbrev S1024x16x1 : Shape := ⟨3, ![1024, 16, 1]⟩
abbrev S1024x16x256 : Shape := ⟨3, ![1024, 16, 256]⟩
abbrev S1x1x256 : Shape := ⟨3, ![1, 1, 256]⟩
abbrev S512x256 : Shape := ⟨2, ![512, 256]⟩
abbrev S1024x16x512 : Shape := ⟨3, ![1024, 16, 512]⟩
abbrev S1024x16x1x512 : Shape := ⟨4, ![1024, 16, 1, 512]⟩
abbrev S1024x1x16x512 : Shape := ⟨4, ![1024, 1, 16, 512]⟩
abbrev S1024x16x16x512 : Shape := ⟨4, ![1024, 16, 16, 512]⟩
abbrev S1x1x1x512 : Shape := ⟨4, ![1, 1, 1, 512]⟩
abbrev S1024x512 : Shape := ⟨2, ![1024, 512]⟩

abbrev nBuf : Space → Nat
  | .hbm => 61
  | .vmem => 0
  | .smem => 0
  | _ => 0

abbrev bufTy : (tb : Table) → Fin (tcTables nBuf tb) → BufTy
  | .hbm, ⟨0, _⟩ => ⟨S1024x16, .i32⟩
  | .hbm, ⟨1, _⟩ => ⟨S1024x16x128, .f32⟩
  | .hbm, ⟨2, _⟩ => ⟨S1000x128, .f32⟩
  | .hbm, ⟨3, _⟩ => ⟨S256x256, .f32⟩
  | .hbm, ⟨4, _⟩ => ⟨S256, .f32⟩
  | .hbm, ⟨5, _⟩ => ⟨S256, .f32⟩
  | .hbm, ⟨6, _⟩ => ⟨S256, .f32⟩
  | .hbm, ⟨7, _⟩ => ⟨S256, .f32⟩
  | .hbm, ⟨8, _⟩ => ⟨S256, .f32⟩
  | .hbm, ⟨9, _⟩ => ⟨S512x512, .f32⟩
  | .hbm, ⟨10, _⟩ => ⟨S512, .f32⟩
  | .hbm, ⟨11, _⟩ => ⟨S_, .i32⟩
  | .hbm, ⟨12, _⟩ => ⟨S1024x16, .i32⟩
  | .hbm, ⟨13, _⟩ => ⟨S1024x16, .i1⟩
  | .hbm, ⟨14, _⟩ => ⟨S_, .i32⟩
  | .hbm, ⟨15, _⟩ => ⟨S1024x16, .i32⟩
  | .hbm, ⟨16, _⟩ => ⟨S1024x16, .i32⟩
  | .hbm, ⟨17, _⟩ => ⟨S1024x16, .i32⟩
  | .hbm, ⟨18, _⟩ => ⟨S1024x16x1, .i32⟩
  | .hbm, ⟨19, _⟩ => ⟨S1024x16x128, .f32⟩
  | .hbm, ⟨20, _⟩ => ⟨S1024x16x256, .f32⟩
  | .hbm, ⟨21, _⟩ => ⟨S1024x16x256, .f32⟩
  | .hbm, ⟨22, _⟩ => ⟨S1x1x256, .f32⟩
  | .hbm, ⟨23, _⟩ => ⟨S1024x16x256, .f32⟩
  | .hbm, ⟨24, _⟩ => ⟨S1024x16x256, .f32⟩
  | .hbm, ⟨25, _⟩ => ⟨S1x1x256, .f32⟩
  | .hbm, ⟨26, _⟩ => ⟨S1024x16x256, .f32⟩
  | .hbm, ⟨27, _⟩ => ⟨S1024x16x256, .f32⟩
  | .hbm, ⟨28, _⟩ => ⟨S_, .f32⟩
  | .hbm, ⟨29, _⟩ => ⟨S256, .f32⟩
  | .hbm, ⟨30, _⟩ => ⟨S256, .f32⟩
  | .hbm, ⟨31, _⟩ => ⟨S256, .f32⟩
  | .hbm, ⟨32, _⟩ => ⟨S256, .f32⟩
  | .hbm, ⟨33, _⟩ => ⟨S1x1x256, .f32⟩
  | .hbm, ⟨34, _⟩ => ⟨S1024x16x256, .f32⟩
  | .hbm, ⟨35, _⟩ => ⟨S1024x16x256, .f32⟩
  | .hbm, ⟨36, _⟩ => ⟨S1x1x256, .f32⟩
  | .hbm, ⟨37, _⟩ => ⟨S1024x16x256, .f32⟩
  | .hbm, ⟨38, _⟩ => ⟨S1024x16x256, .f32⟩
  | .hbm, ⟨39, _⟩ => ⟨S_, .f32⟩
  | .hbm, ⟨40, _⟩ => ⟨S1024x16x256, .f32⟩
  | .hbm, ⟨41, _⟩ => ⟨S1024x16x256, .f32⟩
  | .hbm, ⟨42, _⟩ => ⟨S512x256, .f32⟩
  | .hbm, ⟨43, _⟩ => ⟨S512x256, .f32⟩
  | .hbm, ⟨44, _⟩ => ⟨S1024x16x512, .f32⟩
  | .hbm, ⟨45, _⟩ => ⟨S1024x16x512, .f32⟩
  | .hbm, ⟨46, _⟩ => ⟨S1024x16x1x512, .f32⟩
  | .hbm, ⟨47, _⟩ => ⟨S1024x1x16x512, .f32⟩
  | .hbm, ⟨48, _⟩ => ⟨S1024x16x16x512, .f32⟩
  | .hbm, ⟨49, _⟩ => ⟨S1024x16x16x512, .f32⟩
  | .hbm, ⟨50, _⟩ => ⟨S1024x16x16x512, .f32⟩
  | .hbm, ⟨51, _⟩ => ⟨S1x1x1x512, .f32⟩
  | .hbm, ⟨52, _⟩ => ⟨S1024x16x16x512, .f32⟩
  | .hbm, ⟨53, _⟩ => ⟨S1024x16x16x512, .f32⟩
  | .hbm, ⟨54, _⟩ => ⟨S_, .f32⟩
  | .hbm, ⟨55, _⟩ => ⟨S1024x16x16x512, .f32⟩
  | .hbm, ⟨56, _⟩ => ⟨S1024x16x16x512, .f32⟩
  | .hbm, ⟨57, _⟩ => ⟨S_, .f32⟩
  | .hbm, ⟨58, _⟩ => ⟨S1024x16x512, .f32⟩
  | .hbm, ⟨59, _⟩ => ⟨S_, .f32⟩
  | .hbm, ⟨60, _⟩ => ⟨S1024x512, .f32⟩
  | _, _ => ⟨S1024x16, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_v0 : Ref sig .tc := ⟨.hbm, 12, rfl⟩
abbrev main_v1 : Ref sig .tc := ⟨.hbm, 13, rfl⟩
abbrev main_c_0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_call0_cst : Ref sig .tc := ⟨.hbm, 39, rfl⟩
abbrev main_call0_v0 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_call1_cst : Ref sig .tc := ⟨.hbm, 54, rfl⟩
abbrev main_call1_v0 : Ref sig .tc := ⟨.hbm, 55, rfl⟩
abbrev main_v38 : Ref sig .tc := ⟨.hbm, 56, rfl⟩
abbrev main_cst_1 : Ref sig .tc := ⟨.hbm, 57, rfl⟩
abbrev main_v39 : Ref sig .tc := ⟨.hbm, 58, rfl⟩
abbrev main_cst_2 : Ref sig .tc := ⟨.hbm, 59, rfl⟩
abbrev main_v40 : Ref sig .tc := ⟨.hbm, 60, rfl⟩

abbrev nD : Nat := 1
abbrev τ : Topo := Topo.v7x

variable {F : FTy → Type} [FloatOps F]

class Facts₀ : Prop where
  bcast_S_S1024x16 : S_.BroadcastsInDim S1024x16 (![] : Fin 0 → Fin S1024x16.rank)
  bcast_S1024x16_S1024x16x1_0_1 : S1024x16.BroadcastsInDim S1024x16x1 (![0, 1] : Fin 2 → Fin S1024x16x1.rank)
  concatenates_S1024x16x128_S1024x16x128_S1024x16x256_d2 : Shape.Concatenates [S1024x16x128, S1024x16x128] S1024x16x256 2
  bcast_S256_S1x1x256_2 : S256.BroadcastsInDim S1x1x256 (![2] : Fin 1 → Fin S1x1x256.rank)
  bcast_S1x1x256_S1024x16x256_0_1_2 : S1x1x256.BroadcastsInDim S1024x16x256 (![0, 1, 2] : Fin 3 → Fin S1024x16x256.rank)
  bcast_S_S256 : S_.BroadcastsInDim S256 (![] : Fin 0 → Fin S256.rank)
  bcast_S_S1024x16x256 : S_.BroadcastsInDim S1024x16x256 (![] : Fin 0 → Fin S1024x16x256.rank)
  slices_S512x512_S512x256_0_0 : S512x512.Slices ![0, 0] S512x256
  slices_S512x512_S512x256_0_256 : S512x512.Slices ![0, 256] S512x256
  bcast_S1024x16x512_S1024x16x1x512_0_1_3 : S1024x16x512.BroadcastsInDim S1024x16x1x512 (![0, 1, 3] : Fin 3 → Fin S1024x16x1x512.rank)
  bcast_S1024x16x512_S1024x1x16x512_0_2_3 : S1024x16x512.BroadcastsInDim S1024x1x16x512 (![0, 2, 3] : Fin 3 → Fin S1024x1x16x512.rank)
  bcast_S1024x16x1x512_S1024x16x16x512_0_1_2_3 : S1024x16x1x512.BroadcastsInDim S1024x16x16x512 (![0, 1, 2, 3] : Fin 4 → Fin S1024x16x16x512.rank)
  bcast_S1024x1x16x512_S1024x16x16x512_0_1_2_3 : S1024x1x16x512.BroadcastsInDim S1024x16x16x512 (![0, 1, 2, 3] : Fin 4 → Fin S1024x16x16x512.rank)
  bcast_S512_S1x1x1x512_3 : S512.BroadcastsInDim S1x1x1x512 (![3] : Fin 1 → Fin S1x1x1x512.rank)
  bcast_S1x1x1x512_S1024x16x16x512_0_1_2_3 : S1x1x1x512.BroadcastsInDim S1024x16x16x512 (![0, 1, 2, 3] : Fin 4 → Fin S1024x16x16x512.rank)
  bcast_S_S1024x16x16x512 : S_.BroadcastsInDim S1024x16x16x512 (![] : Fin 0 → Fin S1024x16x16x512.rank)
  reducesTo_S1024x16x16x512_S1024x16x512_d2 : S1024x16x16x512.ReducesTo [2] S1024x16x512
  h_S_ : 0 < S_.numel
  reducesTo_S1024x16x512_S1024x512_d1 : S1024x16x512.ReducesTo [1] S1024x512
  gather_S1000x128_S1024x16x1_S1024x16x128_2_0_n_n_0_2_1128_wf : GatherDims.WF S1000x128 S1024x16x1 S1024x16x128 [2] [0] [] [0] [] 2 ![1, 128]
  dot_S1024x16x256_S256x256_S1024x16x256_2_1_01_0_n_n_wf : DotDims.WF S1024x16x256 S256x256 S1024x16x256 [2] [1] [0, 1] [0] [] []
  dot_S1024x16x256_S512x256_S1024x16x512_2_1_01_0_n_n_wf : DotDims.WF S1024x16x256 S512x256 S1024x16x512 [2] [1] [0, 1] [0] [] []

variable [Facts₀]

def gather_S1000x128_S1024x16x1_S1024x16x128_2_0_n_n_0_2_1128 : GatherDims S1000x128 S1024x16x1 S1024x16x128 where
  offsetDims := [2]
  collapsedSliceDims := [0]
  operandBatchingDims := []
  startIndicesBatchingDims := []
  startIndexMap := [0]
  indexVectorDim := 2
  sliceSizes := ![1, 128]
  wf := gather_S1000x128_S1024x16x1_S1024x16x128_2_0_n_n_0_2_1128_wf
def dot_S1024x16x256_S256x256_S1024x16x256_2_1_01_0_n_n : DotDims S1024x16x256 S256x256 S1024x16x256 where
  lhsContracting := [2]
  rhsContracting := [1]
  lhsNonContracting := [0, 1]
  rhsNonContracting := [0]
  lhsBatch := []
  rhsBatch := []
  wf := dot_S1024x16x256_S256x256_S1024x16x256_2_1_01_0_n_n_wf
def dot_S1024x16x256_S512x256_S1024x16x512_2_1_01_0_n_n : DotDims S1024x16x256 S512x256 S1024x16x512 where
  lhsContracting := [2]
  rhsContracting := [1]
  lhsNonContracting := [0, 1]
  rhsNonContracting := [0]
  lhsBatch := []
  rhsBatch := []
  wf := dot_S1024x16x256_S512x256_S1024x16x512_2_1_01_0_n_n_wf

class Facts : Prop extends Facts₀ where

variable [Facts]
-- ==== Proof.Spec.lean ====
/-
  The fact block as mathematics, over the extended reals, with no program in sight.

  A fact has 16 slots; slot `a` of fact `b` carries a role embedding `E[b,a,·]` and a value embedding `V[b,a,·]`
  (128 numbers each). A 1×1 convolution with 256 filters mixes the two halves, a per-filter affine map
  (an evaluated batch normalisation) and a rectifier follow: that is the slot's feature vector `x[b,a,·]`.
  Two linear maps into 512 channels give `aᵢ` and `aⱼ`; the block's answer at `(b, g)` is the least, over all
  ordered pairs of slots `(i, j)`, of the rectified sum `aᵢ[b,i,g] + aⱼ[b,j,g] + bias[g]`.

  Two spellings of the same function are set down here. `tileOut` is the one a batch tile computes: the convolution's
  weight already cut into its two transposed halves, the normalisation already folded to a scale and a shift, the two
  linear maps already transposed; it is generic in the number `n` of facts so that it can be read on a tile of 64 facts
  and on all 1024. `refOut` is the textbook one: one contraction over the 256 joined input coordinates, the
  normalisation written `(y - μ) · γ/√(σ² + ε) + β`, the linear maps contracted against the untransposed weight.
  That they agree is proved elsewhere, from the real-ness of the normalisation's parameters.
-/
import Idealize.ShloMosaic.PureOps.Ideal
import Idealize.ShloMosaic.Lib.ValueIdx

noncomputable section

namespace Cert.FactBlock

open Idealize.ShloMosaic Idealize.ShloMosaic.ValueIdx

/-- The embeddings of `n` facts: fact, slot, coordinate. -/
abbrev TEmb (n : Nat) : Shape := ⟨3, ![n, 16, 128]⟩
/-- A half of the convolution's weight, transposed: input coordinate, filter. -/
abbrev THalf : Shape := ⟨2, ![128, 256]⟩
/-- The convolution's weight: filter, joined input coordinate. -/
abbrev TConv : Shape := ⟨2, ![256, 256]⟩
/-- One number per filter. -/
abbrev TFil : Shape := ⟨1, ![256]⟩
/-- A linear map into the 512 channels, transposed: filter, channel. -/
abbrev TLinT : Shape := ⟨2, ![256, 512]⟩
/-- Both linear maps side by side: channel, then the 256 filters of the first map and the 256 of the second. -/
abbrev TLin : Shape := ⟨2, ![512, 512]⟩
/-- One number per channel. -/
abbrev TChan : Shape := ⟨1, ![512]⟩

/-- The first 128 of 256 coordinates. -/
abbrev lo128 (k : Fin 128) : Fin 256 := ⟨k.val, by omega⟩
/-- The last 128 of 256 coordinates. -/
abbrev hi128 (k : Fin 128) : Fin 256 := ⟨128 + k.val, by omega⟩
/-- The first 256 of 512 coordinates. -/
abbrev lo256 (f : Fin 256) : Fin 512 := ⟨f.val, by omega⟩
/-- The last 256 of 512 coordinates. -/
abbrev hi256 (f : Fin 256) : Fin 512 := ⟨256 + f.val, by omega⟩

/-! ## The pair minimum -/

/-- The least rectified pair sum: over the first slot `i`, the least over the second slot `j` of
    `max (aᵢ[b,i,g] + aⱼ[b,j,g] + bias[g]) 0`; an empty minimum would be `+∞`. -/
def pairMin {n : Nat} (ai aj : Fin n → Fin 16 → Fin 512 → EReal) (gb : TChan.Idx → EReal) (b : Fin n) (g : Fin 512) : EReal :=
  (Finset.univ : Finset (Fin 16)).fold min ⊤ fun i =>
    (Finset.univ : Finset (Fin 16)).fold min ⊤ fun j => max (ai b i g + aj b j g + gb (ix1 g)) 0

/-! ## As a batch tile computes it -/

/-- A slot's features, from the two half-convolutions, the bias, the folded scale and shift, rectified. -/
def tileFeat {n : Nat} (E V : (TEmb n).Idx → EReal) (WR WV : THalf.Idx → EReal) (cb sc bi : TFil.Idx → EReal)
    (b : Fin n) (a : Fin 16) (f : Fin 256) : EReal :=
  max ((((∑ k : Fin 128, E (ix3 b a k) * WR (ix2 k f)) + (∑ k : Fin 128, V (ix3 b a k) * WV (ix2 k f))) + cb (ix1 f))
    * sc (ix1 f) + bi (ix1 f)) 0

/-- A linear map of the features into the channels, against the transposed weight. -/
def tileLin {n : Nat} (x : Fin n → Fin 16 → Fin 256 → EReal) (W : TLinT.Idx → EReal) (b : Fin n) (a : Fin 16) (g : Fin 512) : EReal :=
  ∑ f : Fin 256, x b a f * W (ix2 f g)

/-- The block's answer as a batch tile computes it. -/
def tileOut {n : Nat} (E V : (TEmb n).Idx → EReal) (WR WV : THalf.Idx → EReal) (cb sc bi : TFil.Idx → EReal)
    (WI WJ : TLinT.Idx → EReal) (gb : TChan.Idx → EReal) (b : Fin n) (g : Fin 512) : EReal :=
  pairMin (tileLin (tileFeat E V WR WV cb sc bi) WI) (tileLin (tileFeat E V WR WV cb sc bi) WJ) gb b g

/-- A tile's answer for fact `b` reads the embeddings of that fact only: two families of embeddings that agree on
    the rows `b` and `b'` give the same answer there. -/
theorem tileOut_row_congr {n n' : Nat} (E V : (TEmb n).Idx → EReal) (E' V' : (TEmb n').Idx → EReal) (WR WV : THalf.Idx → EReal)
    (cb sc bi : TFil.Idx → EReal) (WI WJ : TLinT.Idx → EReal) (gb : TChan.Idx → EReal) (b : Fin n) (b' : Fin n') (g : Fin 512)
    (hE : ∀ a k, E (ix3 b a k) = E' (ix3 b' a k)) (hV : ∀ a k, V (ix3 b a k) = V' (ix3 b' a k)) :
    tileOut E V WR WV cb sc bi WI WJ gb b g = tileOut E' V' WR WV cb sc bi WI WJ gb b' g := by
  have hx : ∀ a f, tileFeat E V WR WV cb sc bi b a f = tileFeat E' V' WR WV cb sc bi b' a f := by
    intro a f; unfold tileFeat; simp only [hE, hV]
  unfold tileOut pairMin tileLin
  simp only [hx]

/-! ## As the textbook writes it -/

/-- The normalisation's `ε`: the binary32 number nearest to `10⁻⁵`. -/
def eps : EReal := Ideal.ofBits .f32 0x3727C5AC#32

/-- The normalisation's scale `γ / √(σ² + ε)`. -/
def bnScale (γ v : TFil.Idx → EReal) (f : Fin 256) : EReal := Ideal.div (γ (ix1 f)) (Ideal.sqrt (v (ix1 f) + eps))

/-- Coordinate `k` of slot `a`'s joined input: the role embedding first, the value embedding after it. -/
def joined (E V : (TEmb 1024).Idx → EReal) (b : Fin 1024) (a : Fin 16) (k : Fin 256) : EReal :=
  if h : k.val < 128 then E (ix3 b a ⟨k.val, h⟩) else V (ix3 b a ⟨k.val - 128, by omega⟩)

/-- A slot's features: the convolution over the joined input, the bias, the normalisation, the rectifier. -/
def refFeat (E V : (TEmb 1024).Idx → EReal) (cw : TConv.Idx → EReal) (cb γ β μ v : TFil.Idx → EReal)
    (b : Fin 1024) (a : Fin 16) (f : Fin 256) : EReal :=
  max ((((∑ k : Fin 256, joined E V b a k * cw (ix2 f k)) + cb (ix1 f)) - μ (ix1 f)) * bnScale γ v f + β (ix1 f)) 0

/-- A linear map of the features into the channels, against the filters `off f` of the untransposed weight. -/
def refLin (x : Fin 1024 → Fin 16 → Fin 256 → EReal) (gw : TLin.Idx → EReal) (off : Fin 256 → Fin 512)
    (b : Fin 1024) (a : Fin 16) (g : Fin 512) : EReal :=
  ∑ f : Fin 256, x b a f * gw (ix2 g (off f))

/-- The block's answer as the textbook writes it. -/
def refOut (E V : (TEmb 1024).Idx → EReal) (cw : TConv.Idx → EReal) (cb γ β μ v : TFil.Idx → EReal)
    (gw : TLin.Idx → EReal) (gb : TChan.Idx → EReal) (b : Fin 1024) (g : Fin 512) : EReal :=
  pairMin (refLin (refFeat E V cw cb γ β μ v) gw lo256) (refLin (refFeat E V cw cb γ β μ v) gw hi256) gb b g

end Cert.FactBlock

end
-- ==== Proof.TileBody.lean ====
/-
  What one batch tile computes, read off the body's arithmetic: the block of 64 × 512 numbers a grid point leaves is
  `tileOut` (Spec.lean) of the ten blocks it loads — the 64 facts' role and value embeddings, the two transposed halves
  of the convolution's weight, the bias, the folded scale and shift, the two transposed linear maps and the channel bias.

  The steps: a product of a [1024, K] by a [K, N] matrix into a zero accumulator is, entry by entry, the sum over the
  K inner coordinates; the 64 × 16 slots laid out as 1024 rows put slot `a` of fact `b` in row `16 b + a`; a row vector
  broadcast down the rows reads its own entry; so the rectified, normalised sum of the two products is the slot's
  feature vector, and the two products of it with the linear maps, cut back into 64 × 16 rows, are `aᵢ` and `aⱼ`.
  The sixteen unrolled rounds each take slot `i` of `aᵢ`, add it to every slot of `aⱼ` and the channel bias, rectify,
  and take the least over the second slot; the running minimum from `+∞` over the rounds is the pair minimum.
-/
import proofs.«138758_j28252294873241_1_alg».proof.Proof.Gen.KernelIdeal.Value
import proofs.«138758_j28252294873241_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.TileBody

open Idealize.ShloMosaic Idealize.ShloMosaic.ValueIdx Cert.KernelIdeal Cert.KernelIdeal.Gen Cert.FactBlock

/-! ## The two matrix products, entry by entry -/

/-- The product of the 1024 slot rows (128 coordinates each) with a transposed half of the convolution's weight. -/
abbrev dotConv := dot_S1024x128_S128x256_S1024x256_1_0_0_1_n_n
/-- The product of the 1024 feature rows (256 filters each) with a transposed linear map. -/
abbrev dotLin := dot_S1024x256_S256x512_S1024x512_1_0_0_1_n_n

theorem lhs_dotConv_0 (i : S1024x256.Idx) (q : dot_S1024x128_S128x256_S1024x256_1_0_0_1_n_n.contr.Idx) :
    (dot_S1024x128_S128x256_S1024x256_1_0_0_1_n_n.lhsIdx i q 0).val = (i 0).val := by
  unfold DotDims.lhsIdx
  rw [dif_neg (show ¬(0 : Fin S1024x128.rank) ∈ dot_S1024x128_S128x256_S1024x256_1_0_0_1_n_n.lhsBatch by decide), dif_pos (show (0 : Fin S1024x128.rank) ∈ dot_S1024x128_S128x256_S1024x256_1_0_0_1_n_n.lhsNonContracting by decide)]
  rfl
theorem lhs_dotConv_1 (i : S1024x256.Idx) (q : dot_S1024x128_S128x256_S1024x256_1_0_0_1_n_n.contr.Idx) :
    (dot_S1024x128_S128x256_S1024x256_1_0_0_1_n_n.lhsIdx i q 1).val = (q ⟨0, by decide⟩).val :=
  dot_S1024x128_S128x256_S1024x256_1_0_0_1_n_n.lhsIdx_val_of_single rfl i q
theorem rhs_dotConv_0 (i : S1024x256.Idx) (q : dot_S1024x128_S128x256_S1024x256_1_0_0_1_n_n.contr.Idx) :
    (dot_S1024x128_S128x256_S1024x256_1_0_0_1_n_n.rhsIdx i q 0).val = (q ⟨0, by decide⟩).val :=
  dot_S1024x128_S128x256_S1024x256_1_0_0_1_n_n.rhsIdx_val_of_single rfl i q
theorem rhs_dotConv_1 (i : S1024x256.Idx) (q : dot_S1024x128_S128x256_S1024x256_1_0_0_1_n_n.contr.Idx) :
    (dot_S1024x128_S128x256_S1024x256_1_0_0_1_n_n.rhsIdx i q 1).val = (i 1).val := by
  unfold DotDims.rhsIdx
  rw [dif_neg (show ¬(1 : Fin S128x256.rank) ∈ dot_S1024x128_S128x256_S1024x256_1_0_0_1_n_n.rhsBatch by decide), dif_pos (show (1 : Fin S128x256.rank) ∈ dot_S1024x128_S128x256_S1024x256_1_0_0_1_n_n.rhsNonContracting by decide)]
  rfl

/-- Entry `(r, f)` of a 1024 × 128 by 128 × 256 product into zero is the sum over the 128 inner coordinates. -/
theorem conv_apply (L : FVec Ideal S1024x128 .bf16) (R : FVec Ideal S128x256 .bf16) (r : Fin 1024) (f : Fin 256) :
    matmul dot_S1024x128_S128x256_S1024x256_1_0_0_1_n_n none L R (constant S1024x256 .f32 0x00000000#32) (ix2 r f)
      = ∑ k : Fin 128, L (ix2 r k) * R (ix2 k f) := by
  simp only [matmul]
  rw [Ideal.matmul_constant_zero_apply, ← Equiv.sum_comp (contrEquiv1 dot_S1024x128_S128x256_S1024x256_1_0_0_1_n_n 128 rfl rfl).symm]
  refine Finset.sum_congr rfl fun k _ => ?_
  have hk := contrEquiv1_symm_val dot_S1024x128_S128x256_S1024x256_1_0_0_1_n_n 128 rfl rfl k
  have el : dot_S1024x128_S128x256_S1024x256_1_0_0_1_n_n.lhsIdx (ix2 r f) ((contrEquiv1 dot_S1024x128_S128x256_S1024x256_1_0_0_1_n_n 128 rfl rfl).symm k) = ix2 r k := funext fun a => Fin.ext (by
    match a with
    | ⟨0, _⟩ => exact lhs_dotConv_0 _ _
    | ⟨1, _⟩ => exact (lhs_dotConv_1 _ _).trans hk)
  have er : dot_S1024x128_S128x256_S1024x256_1_0_0_1_n_n.rhsIdx (ix2 r f) ((contrEquiv1 dot_S1024x128_S128x256_S1024x256_1_0_0_1_n_n 128 rfl rfl).symm k) = ix2 k f := funext fun a => Fin.ext (by
    match a with
    | ⟨0, _⟩ => exact (rhs_dotConv_0 _ _).trans hk
    | ⟨1, _⟩ => exact rhs_dotConv_1 _ _)
  rw [el, er]

theorem lhs_dotLin_0 (i : S1024x512.Idx) (q : dot_S1024x256_S256x512_S1024x512_1_0_0_1_n_n.contr.Idx) :
    (dot_S1024x256_S256x512_S1024x512_1_0_0_1_n_n.lhsIdx i q 0).val = (i 0).val := by
  unfold DotDims.lhsIdx
  rw [dif_neg (show ¬(0 : Fin S1024x256.rank) ∈ dot_S1024x256_S256x512_S1024x512_1_0_0_1_n_n.lhsBatch by decide), dif_pos (show (0 : Fin S1024x256.rank) ∈ dot_S1024x256_S256x512_S1024x512_1_0_0_1_n_n.lhsNonContracting by decide)]
  rfl
theorem lhs_dotLin_1 (i : S1024x512.Idx) (q : dot_S1024x256_S256x512_S1024x512_1_0_0_1_n_n.contr.Idx) :
    (dot_S1024x256_S256x512_S1024x512_1_0_0_1_n_n.lhsIdx i q 1).val = (q ⟨0, by decide⟩).val :=
  dot_S1024x256_S256x512_S1024x512_1_0_0_1_n_n.lhsIdx_val_of_single rfl i q
theorem rhs_dotLin_0 (i : S1024x512.Idx) (q : dot_S1024x256_S256x512_S1024x512_1_0_0_1_n_n.contr.Idx) :
    (dot_S1024x256_S256x512_S1024x512_1_0_0_1_n_n.rhsIdx i q 0).val = (q ⟨0, by decide⟩).val :=
  dot_S1024x256_S256x512_S1024x512_1_0_0_1_n_n.rhsIdx_val_of_single rfl i q
theorem rhs_dotLin_1 (i : S1024x512.Idx) (q : dot_S1024x256_S256x512_S1024x512_1_0_0_1_n_n.contr.Idx) :
    (dot_S1024x256_S256x512_S1024x512_1_0_0_1_n_n.rhsIdx i q 1).val = (i 1).val := by
  unfold DotDims.rhsIdx
  rw [dif_neg (show ¬(1 : Fin S256x512.rank) ∈ dot_S1024x256_S256x512_S1024x512_1_0_0_1_n_n.rhsBatch by decide), dif_pos (show (1 : Fin S256x512.rank) ∈ dot_S1024x256_S256x512_S1024x512_1_0_0_1_n_n.rhsNonContracting by decide)]
  rfl

/-- Entry `(r, g)` of a 1024 × 256 by 256 × 512 product into zero is the sum over the 256 inner coordinates. -/
theorem lin_apply (L : FVec Ideal S1024x256 .bf16) (R : FVec Ideal S256x512 .bf16) (r : Fin 1024) (g : Fin 512) :
    matmul dot_S1024x256_S256x512_S1024x512_1_0_0_1_n_n none L R (constant S1024x512 .f32 0x00000000#32) (ix2 r g)
      = ∑ f : Fin 256, L (ix2 r f) * R (ix2 f g) := by
  simp only [matmul]
  rw [Ideal.matmul_constant_zero_apply, ← Equiv.sum_comp (contrEquiv1 dot_S1024x256_S256x512_S1024x512_1_0_0_1_n_n 256 rfl rfl).symm]
  refine Finset.sum_congr rfl fun k _ => ?_
  have hk := contrEquiv1_symm_val dot_S1024x256_S256x512_S1024x512_1_0_0_1_n_n 256 rfl rfl k
  have el : dot_S1024x256_S256x512_S1024x512_1_0_0_1_n_n.lhsIdx (ix2 r g) ((contrEquiv1 dot_S1024x256_S256x512_S1024x512_1_0_0_1_n_n 256 rfl rfl).symm k) = ix2 r k := funext fun a => Fin.ext (by
    match a with
    | ⟨0, _⟩ => exact lhs_dotLin_0 _ _
    | ⟨1, _⟩ => exact (lhs_dotLin_1 _ _).trans hk)
  have er : dot_S1024x256_S256x512_S1024x512_1_0_0_1_n_n.rhsIdx (ix2 r g) ((contrEquiv1 dot_S1024x256_S256x512_S1024x512_1_0_0_1_n_n 256 rfl rfl).symm k) = ix2 k g := funext fun a => Fin.ext (by
    match a with
    | ⟨0, _⟩ => exact (rhs_dotLin_0 _ _).trans hk
    | ⟨1, _⟩ => exact rhs_dotLin_1 _ _)
  rw [el, er]

/-! ## Rows and slots -/

/-- Slot `a` of fact `b` is row `16 b + a` of the 1024. -/
abbrev row (b : Fin 64) (a : Fin 16) : Fin 1024 := ⟨16 * b.val + a.val, by omega⟩

/-- The 64 × 16 × 128 block laid out as 1024 rows reads slot `a` of fact `b` in row `16 b + a`. -/
theorem rows128_apply {α : Type} (x : S64x16x128.Idx → α) (h2 : S64x16x128.ShapeCasts S1024x128)
    (b : Fin 64) (a : Fin 16) (k : Fin 128) :
    shapeCast S1024x128 x h2 (ix2 (row b a) k) = x (ix3 b a k) := by
  refine shapeCast_apply x h2 (ix2 (row b a) k) (ix3 b a k) ?_
  rw [Shape.rowMajor_val_two, Shape.rowMajor_val_three]
  show (b.val * 16 + a.val) * 128 + k.val = (16 * b.val + a.val) * 128 + k.val
  omega

/-- A 1024 × 512 product cut back into 64 × 16 slot rows reads row `16 b + a` at slot `a` of fact `b`. -/
theorem slots512_apply {α : Type} (x : S1024x512.Idx → α) (h : S1024x512.ShapeCasts S64x16x512)
    (b : Fin 64) (a : Fin 16) (g : Fin 512) :
    shapeCast S64x16x512 x h (ix3 b a g) = x (ix2 (row b a) g) := by
  refine shapeCast_apply x h (ix3 b a g) (ix2 (row b a) g) ?_
  rw [Shape.rowMajor_val_two, Shape.rowMajor_val_three]
  show (16 * b.val + a.val) * 512 + g.val = (b.val * 16 + a.val) * 512 + g.val
  omega

/-- A vector of 256 numbers laid as one row and broadcast down 1024 rows reads its own entry in every row. -/
theorem perFilter_apply {α : Type} (x : S256.Idx → α) (h1 : S256.ShapeCasts S1x256) (h2 : S1x256.Broadcasts S1024x256)
    (r : Fin 1024) (f : Fin 256) :
    broadcastTo S1024x256 (shapeCast S1x256 x h1) h2 (ix2 r f) = x (ix1 f) := by
  rw [broadcastTo_1b_ab_apply, shapeCast_a_1a_apply]

/-! ## The features -/

/-- The body's feature value (the rectified, normalised sum of the two half-convolutions, narrowed) at row
    `16 b + a`, filter `f`, is the tile's feature of slot `a` of fact `b`. -/
theorem feat_apply (P0 P1 : Vec Ideal S64x16x128 .bf16) (P2 P3 : Vec Ideal S128x256 .bf16) (P4 P5 P6 : Vec Ideal S256 .f32)
    (b : Fin 64) (a : Fin 16) (f : Fin 256) :
    k0_pay2 P0 P1 P2 P3 P4 P5 P6 (ix2 (row b a) f) = tileFeat (n := 64) P0 P1 P2 P3 P4 P5 P6 b a f := by
  unfold k0_pay2 tileFeat
  simp only [truncf_apply, maximumf_apply, addf_apply, mulf_apply, broadcast_apply]
  rw [conv_apply, conv_apply, perFilter_apply, perFilter_apply, perFilter_apply]
  simp only [shapeCast_self, rows128_apply, Ideal.ofBits_def, Ideal.ofBits_zero_f32]

/-! ## The two linear maps -/

/-- The body's `aᵢ` (the first product, cut into slot rows) at slot `a` of fact `b`, channel `g`. -/
theorem ai_apply (P0 P1 : Vec Ideal S64x16x128 .bf16) (P2 P3 : Vec Ideal S128x256 .bf16) (P4 P5 P6 : Vec Ideal S256 .f32)
    (P7 : Vec Ideal S256x512 .bf16) (b : Fin 64) (a : Fin 16) (g : Fin 512) :
    k0_pay4 P0 P1 P2 P3 P4 P5 P6 P7 (ix3 b a g) = tileLin (tileFeat (n := 64) P0 P1 P2 P3 P4 P5 P6) P7 b a g := by
  unfold k0_pay4 tileLin
  rw [slots512_apply, lin_apply]
  simp only [feat_apply, shapeCast_self]

/-- The body's `aⱼ` (the second product, cut into slot rows) at slot `a` of fact `b`, channel `g`. -/
theorem aj_apply (P0 P1 : Vec Ideal S64x16x128 .bf16) (P2 P3 : Vec Ideal S128x256 .bf16) (P4 P5 P6 : Vec Ideal S256 .f32)
    (P8 : Vec Ideal S256x512 .bf16) (h : S1024x512.ShapeCasts S64x16x512) (b : Fin 64) (a : Fin 16) (g : Fin 512) :
    shapeCast S64x16x512 (k0_pay3 P0 P1 P2 P3 P4 P5 P6 P8) h (ix3 b a g)
      = tileLin (tileFeat (n := 64) P0 P1 P2 P3 P4 P5 P6) P8 b a g := by
  unfold k0_pay3 tileLin
  rw [slots512_apply, lin_apply]
  simp only [feat_apply, shapeCast_self]

/-! ## One round of the pair minimum -/

/-- A minimum taken over ONE axis, read at an index: the least, from the accumulator's value, over that axis's
    coordinates. -/
theorem minOverAxis_apply {s t : Shape} {φ : FTy} {a : Fin s.rank} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

/-- The pattern of `+∞`. -/
theorem ofBits_inf : Ideal.ofBits .f32 0x7F800000#32 = ⊤ := by simp [Ideal.ofBits, Ideal.ieee]

/-- Over index `(b, g)` of the 64 × 512 result, the second slot `j` inserted on the middle axis gives `(b, j, g)`. -/
theorem lift_slot (h : S64x16x512.Reduces [1] S64x512) (b : Fin 64) (g : Fin 512) (j : Fin (S64x16x512.size 1)) :
    h.lift (ix2 b g) j = ix3 b j g := by
  funext c
  apply Fin.ext
  show h.liftVal (ix2 b g) j.val c = (ix3 b j g c).val
  unfold Shape.Reduces.liftVal
  match c with
  | ⟨0, _⟩ => simp
  | ⟨1, _⟩ => simp
  | ⟨2, _⟩ => simp

/-- The least over the middle axis of a 64 × 16 × 512 array, from `+∞`, at `(b, g)`. -/
theorem minSlots_apply (src : FVec Ideal S64x16x512 .f32) (hr : S64x16x512.Reduces [1] S64x512) (hφ : FKind.Formats .f32)
    (hacc : (0x7F800000#32 : BitVec 32) = FKind.minimumf.neutral .f32 hφ) (b : Fin 64) (g : Fin 512) :
    multiReduction .minimumf [1] S64x512 src 0x7F800000#32 hr hφ hacc (ix2 b g)
      = (Finset.univ : Finset (Fin 16)).fold min ⊤ fun j => src (ix3 b j g) := by
  refine (minOverAxis_apply src 0x7F800000#32 hr hφ hacc (ix2 b g)).trans ?_
  have e : (src ∘ hr.lift (ix2 b g)) = fun j : Fin (S64x16x512.size 1) => src (ix3 b j g) :=
    funext fun j => congrArg src (lift_slot hr b g j)
  rw [e, Ideal.ofBits_def, ofBits_inf]
  rfl

/-- Slot `i` of `aᵢ`, cut out, flattened, unflattened and broadcast over the 16 second slots, reads `aᵢ[b, i, g]`
    at every `(b, j, g)`. -/
theorem slotBroadcast_apply {α : Type} (AI : S64x16x512.Idx → α) (i : Fin 16)
    (hs : S64x16x512.Slices ![0, i.val, 0] S64x1x512) (h1 : S64x1x512.ShapeCasts S64x512) (h2 : S64x512.ShapeCasts S64x1x512)
    (h3 : S64x1x512.Broadcasts S64x16x512) (b : Fin 64) (j : Fin 16) (g : Fin 512) :
    broadcastTo S64x16x512 (shapeCast S64x1x512 (shapeCast S64x512 (extractStridedSlice S64x1x512 ![0, i.val, 0] AI hs) h1) h2) h3 (ix3 b j g)
      = AI (ix3 b i g) := by
  rw [shapeCast_shapeCast]
  refine (broadcastTo_apply _ h3 (ix3 b j g) (ix3 b (0 : Fin 1) g) fun ax => ?_).trans ?_
  · match ax with
    | ⟨0, _⟩ => rfl
    | ⟨1, _⟩ => rfl
    | ⟨2, _⟩ => rfl
  · refine extractStridedSlice_apply _ AI hs (ix3 b (0 : Fin 1) g) (ix3 b i g) fun ax => ?_
    match ax with
    | ⟨0, _⟩ => show b.val = 0 + b.val; omega
    | ⟨1, _⟩ => show i.val = i.val + 0; omega
    | ⟨2, _⟩ => show g.val = 0 + g.val; omega

/-- The channel bias, laid as a 1 × 1 × 512 array and broadcast over facts and slots, reads its own entry. -/
theorem chanBroadcast_apply {α : Type} (x : S512.Idx → α) (h4 : S512.ShapeCasts S1x1x512) (h5 : S1x1x512.Broadcasts S64x16x512)
    (b : Fin 64) (j : Fin 16) (g : Fin 512) :
    broadcastTo S64x16x512 (shapeCast S1x1x512 x h4) h5 (ix3 b j g) = x (ix1 g) := by
  refine (broadcastTo_apply _ h5 (ix3 b j g) (ix3 (0 : Fin 1) (0 : Fin 1) g) fun ax => ?_).trans ?_
  · match ax with
    | ⟨0, _⟩ => rfl
    | ⟨1, _⟩ => rfl
    | ⟨2, _⟩ => rfl
  · refine shapeCast_apply x h4 _ (ix1 g) ?_
    rw [Shape.rowMajor_val_one, Shape.rowMajor_val_three]
    show g.val = (0 * 1 + 0) * 512 + g.val
    omega

/-- One round: for the first slot `i`, the least over the second slot `j` of the rectified
    `aᵢ[b,i,g] + aⱼ[b,j,g] + bias[g]`. -/
theorem round_apply (AI AJ : FVec Ideal S64x16x512 .f32) (P9 : Vec Ideal S512 .f32) (i : Fin 16)
    (hs : S64x16x512.Slices ![0, i.val, 0] S64x1x512) (h1 : S64x1x512.ShapeCasts S64x512) (h2 : S64x512.ShapeCasts S64x1x512)
    (h3 : S64x1x512.Broadcasts S64x16x512) (h4 : S512.ShapeCasts S1x1x512) (h5 : S1x1x512.Broadcasts S64x16x512)
    (hr : S64x16x512.Reduces [1] S64x512) (hφ : FKind.Formats .f32) (hacc : (0x7F800000#32 : BitVec 32) = FKind.minimumf.neutral .f32 hφ)
    (b : Fin 64) (g : Fin 512) :
    multiReduction .minimumf [1] S64x512
        (maximumf (addf (addf (broadcastTo S64x16x512 (shapeCast S64x1x512 (shapeCast S64x512 (extractStridedSlice S64x1x512 ![0, i.val, 0] AI hs) h1) h2) h3) AJ)
          (broadcastTo S64x16x512 (shapeCast S1x1x512 P9 h4) h5)) (broadcast S64x16x512 (Scalar.ofBits .f32 0x00000000#32)))
        0x7F800000#32 hr hφ hacc (ix2 b g)
      = (Finset.univ : Finset (Fin 16)).fold min ⊤ fun j => max (AI (ix3 b i g) + AJ (ix3 b j g) + P9 (ix1 g)) 0 := by
  rw [minSlots_apply]
  refine Finset.fold_congr fun j _ => ?_
  simp only [maximumf_apply, addf_apply, broadcast_apply, slotBroadcast_apply, chanBroadcast_apply]
  show max _ (Ideal.ofBits .f32 0x00000000#32) = _
  rw [Ideal.ofBits_zero_f32]

/-! ## The sixteen rounds -/

/-- The least of sixteen numbers, from `+∞`, taken one after the other. -/
theorem fold16 (f : Fin 16 → EReal) :
    (Finset.univ : Finset (Fin 16)).fold min ⊤ f
      = min (min (min (min (min (min (min (min (min (min (min (min (min (min (min (min ⊤
          (f ⟨0, by omega⟩)) (f ⟨1, by omega⟩)) (f ⟨2, by omega⟩)) (f ⟨3, by omega⟩)) (f ⟨4, by omega⟩)) (f ⟨5, by omega⟩))
          (f ⟨6, by omega⟩)) (f ⟨7, by omega⟩)) (f ⟨8, by omega⟩)) (f ⟨9, by omega⟩)) (f ⟨10, by omega⟩)) (f ⟨11, by omega⟩))
          (f ⟨12, by omega⟩)) (f ⟨13, by omega⟩)) (f ⟨14, by omega⟩)) (f ⟨15, by omega⟩) := by
  refine eq_of_forall_le_iff fun c => ?_
  rw [Finset.le_fold_min]
  simp only [le_min_iff, le_top, true_and, Finset.mem_univ, forall_true_left]
  constructor
  · intro h
    exact ⟨⟨⟨⟨⟨⟨⟨⟨⟨⟨⟨⟨⟨⟨⟨h _, h _⟩, h _⟩, h _⟩, h _⟩, h _⟩, h _⟩, h _⟩, h _⟩, h _⟩, h _⟩, h _⟩, h _⟩, h _⟩, h _⟩, h _⟩
  · rintro ⟨⟨⟨⟨⟨⟨⟨⟨⟨⟨⟨⟨⟨⟨⟨h0, h1⟩, h2⟩, h3⟩, h4⟩, h5⟩, h6⟩, h7⟩, h8⟩, h9⟩, h10⟩, h11⟩, h12⟩, h13⟩, h14⟩, h15⟩ x
    fin_cases x
    exacts [h0, h1, h2, h3, h4, h5, h6, h7, h8, h9, h10, h11, h12, h13, h14, h15]

/-- An index of the 64 × 512 block rebuilt from its own two coordinates is itself. -/
theorem reindex_self (y y' : S64x512.Idx) (h0 : (y' 0).val = (y 0).val) (h1 : (y' 1).val = (y 1).val) : y' = y :=
  funext fun a => Fin.ext (by
    match a with
    | ⟨0, _⟩ => exact h0
    | ⟨1, _⟩ => exact h1)

-- the printed rounds carry their accumulator's evidence at the type it was decided at (`w = w`), which the
-- reduction's signature spells through the kind's neutral word: rewriting under them needs types compared by unfolding
set_option backward.isDefEq.respectTransparency.types false in
/-- THE BLOCK a grid point leaves, at `(b, g)`, is the tile's answer for its 64 facts. -/
theorem tile_eq (P0 P1 : Vec Ideal S64x16x128 .bf16) (P2 P3 : Vec Ideal S128x256 .bf16) (P4 P5 P6 : Vec Ideal S256 .f32)
    (P7 P8 : Vec Ideal S256x512 .bf16) (P9 : Vec Ideal S512 .f32) (b : Fin 64) (g : Fin 512) :
    Cert.KernelIdeal.Value.E10 P0 P1 P2 P3 P4 P5 P6 P7 P8 P9 (ix2 b g) = tileOut (n := 64) P0 P1 P2 P3 P4 P5 P6 P7 P8 P9 b g := by
  unfold tileOut pairMin
  rw [fold16]
  dsimp only [Cert.KernelIdeal.Value.E10]
  rw [reindex_self (ix2 b g) (Cert.KernelIdeal.Value.ix10_0 (ix2 b g)) rfl rfl,
    reindex_self (ix2 b g) (Cert.KernelIdeal.Value.ix10_1 (ix2 b g)) rfl rfl,
    reindex_self (ix2 b g) (Cert.KernelIdeal.Value.ix10_2 (ix2 b g)) rfl rfl,
    reindex_self (ix2 b g) (Cert.KernelIdeal.Value.ix10_3 (ix2 b g)) rfl rfl,
    reindex_self (ix2 b g) (Cert.KernelIdeal.Value.ix10_4 (ix2 b g)) rfl rfl,
    reindex_self (ix2 b g) (Cert.KernelIdeal.Value.ix10_5 (ix2 b g)) rfl rfl,
    reindex_self (ix2 b g) (Cert.KernelIdeal.Value.ix10_6 (ix2 b g)) rfl rfl,
    reindex_self (ix2 b g) (Cert.KernelIdeal.Value.ix10_7 (ix2 b g)) rfl rfl,
    reindex_self (ix2 b g) (Cert.KernelIdeal.Value.ix10_8 (ix2 b g)) rfl rfl,
    reindex_self (ix2 b g) (Cert.KernelIdeal.Value.ix10_9 (ix2 b g)) rfl rfl,
    reindex_self (ix2 b g) (Cert.KernelIdeal.Value.ix10_10 (ix2 b g)) rfl rfl,
    reindex_self (ix2 b g) (Cert.KernelIdeal.Value.ix10_11 (ix2 b g)) rfl rfl,
    reindex_self (ix2 b g) (Cert.KernelIdeal.Value.ix10_12 (ix2 b g)) rfl rfl,
    reindex_self (ix2 b g) (Cert.KernelIdeal.Value.ix10_13 (ix2 b g)) rfl rfl,
    reindex_self (ix2 b g) (Cert.KernelIdeal.Value.ix10_14 (ix2 b g)) rfl rfl,
    reindex_self (ix2 b g) (Cert.KernelIdeal.Value.ix10_15 (ix2 b g)) rfl rfl]
  rw [round_apply _ _ _ ⟨0, by omega⟩, round_apply _ _ _ ⟨1, by omega⟩, round_apply _ _ _ ⟨2, by omega⟩,
    round_apply _ _ _ ⟨3, by omega⟩, round_apply _ _ _ ⟨4, by omega⟩, round_apply _ _ _ ⟨5, by omega⟩,
    round_apply _ _ _ ⟨6, by omega⟩, round_apply _ _ _ ⟨7, by omega⟩, round_apply _ _ _ ⟨8, by omega⟩,
    round_apply _ _ _ ⟨9, by omega⟩, round_apply _ _ _ ⟨10, by omega⟩, round_apply _ _ _ ⟨11, by omega⟩,
    round_apply _ _ _ ⟨12, by omega⟩, round_apply _ _ _ ⟨13, by omega⟩, round_apply _ _ _ ⟨14, by omega⟩,
    round_apply _ _ _ ⟨15, by omega⟩]
  simp only [ai_apply, aj_apply, Ideal.minimumf_def]
  show min (min (min (min (min (min (min (min (min (min (min (min (min (min (min (min (Ideal.ofBits .f32 0x7F800000#32) _) _) _) _) _) _) _) _) _) _) _) _) _) _) _) _ = _
  rw [ofBits_inf]

/-! ## The block, from the ten loaded blocks -/

theorem hz1 : (![0] : Fin 1 → Nat) = fun _ => 0 := funext fun a => by fin_cases a; rfl
theorem hz2 : (![0, 0] : Fin 2 → Nat) = fun _ => 0 := funext fun a => by fin_cases a <;> rfl
theorem hz3 : (![0, 0, 0] : Fin 3 → Nat) = fun _ => 0 := funext fun a => by fin_cases a <;> rfl

/-- What the body leaves in the result's buffer, from the ten blocks it finds in the inputs' buffers: at `(b, g)`
    the tile's answer for fact `b` of its 64, channel `g`. -/
theorem out_apply (x0 x1 : Vec Ideal S64x16x128 .bf16) (x2 x3 : Vec Ideal S128x256 .bf16) (x4 x5 x6 : Vec Ideal S256 .f32)
    (x7 x8 : Vec Ideal S256x512 .bf16) (x9 : Vec Ideal S512 .f32) (b : Fin 64) (g : Fin 512) :
    out0_10 x0 x1 x2 x3 x4 x5 x6 x7 x8 x9 (ix2 b g) = tileOut (n := 64) x0 x1 x2 x3 x4 x5 x6 x7 x8 x9 b g := by
  have e0 : View.ld x0 r0_0 = x0 := View.ld_unit_zero (S := S64x16x128) hz3 _ x0
  have e1 : View.ld x1 r0_0 = x1 := View.ld_unit_zero (S := S64x16x128) hz3 _ x1
  have e2 : View.ld x2 r0_1 = x2 := View.ld_unit_zero (S := S128x256) hz2 _ x2
  have e3 : View.ld x3 r0_1 = x3 := View.ld_unit_zero (S := S128x256) hz2 _ x3
  have e4 : View.ld x4 r0_2 = x4 := View.ld_unit_zero (S := S256) hz1 _ x4
  have e5 : View.ld x5 r0_2 = x5 := View.ld_unit_zero (S := S256) hz1 _ x5
  have e6 : View.ld x6 r0_2 = x6 := View.ld_unit_zero (S := S256) hz1 _ x6
  have e7 : View.ld x7 r0_3 = x7 := View.ld_unit_zero (S := S256x512) hz2 _ x7
  have e8 : View.ld x8 r0_3 = x8 := View.ld_unit_zero (S := S256x512) hz2 _ x8
  have e9 : View.ld x9 r0_4 = x9 := View.ld_unit_zero (S := S512) hz1 _ x9
  unfold out0_10
  rw [e0, e1, e2, e3, e4, e5, e6, e7, e8, e9]
  exact (Cert.KernelIdeal.Value.canon10_eq x0 x1 x2 x3 x4 x5 x6 x7 x8 x9 (ix2 b g)).trans (tile_eq x0 x1 x2 x3 x4 x5 x6 x7 x8 x9 b g)

end Cert.KernelIdeal.TileBody

end
-- ==== Proof.Blocks.lean ====
/-
  From the batch tiles to the whole result. The launch runs 16 grid points; point `t` finds in its buffers facts
  `64 t … 64 t + 63` of the two embedding arrays and the eight parameter arrays whole, and writes back rows
  `64 t … 64 t + 63` of the result. A tile's answer for a fact reads that fact's embeddings only, so point `t`'s block
  is rows `64 t …` of ONE function of the arrays as the launch finds them: the tile's spelling of the fact block on all
  1024 facts. The 16 row blocks tile the result, which therefore ends holding that function.
-/
import proofs.«138758_j28252294873241_1_alg».proof.Proof.Gen.KernelIdeal.Value
import proofs.«138758_j28252294873241_1_alg».proof.Proof.TileBody
import Idealize.ShloMosaic.Lib.Pipeline.Value

noncomputable section

namespace Cert.KernelIdeal.Blocks

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Value Cert.KernelIdeal.TileBody Cert.FactBlock

variable (m : (ℓ : Loc nD τ sig) → Buf (Elt Ideal) ℓ) (ρ : Dev nD → PrngReg)

/-! ## The arrays as the launch finds them, at their literal types -/

abbrev embRole (c : Dev nD) : S1024x16x128.Idx → EReal := V m c main_v7
abbrev embVal (c : Dev nD) : S1024x16x128.Idx → EReal := V m c main_v8
abbrev halfRole (c : Dev nD) : S128x256.Idx → EReal := V m c main_v11
abbrev halfVal (c : Dev nD) : S128x256.Idx → EReal := V m c main_v14
abbrev convBias (c : Dev nD) : S256.Idx → EReal := V m c main_arg4
abbrev bnScaleArr (c : Dev nD) : S256.Idx → EReal := V m c main_v18
abbrev bnShiftArr (c : Dev nD) : S256.Idx → EReal := V m c main_v20
abbrev linFirst (c : Dev nD) : S256x512.Idx → EReal := V m c main_v24
abbrev linSecond (c : Dev nD) : S256x512.Idx → EReal := V m c main_v26
abbrev chanBias (c : Dev nD) : S512.Idx → EReal := V m c main_arg10

/-- The tile's spelling of the fact block on all 1024 facts, of the arrays as the launch finds them. -/
def launched (c : Dev nD) : S1024x512.Idx → EReal := fun i =>
  tileOut (n := 1024) (embRole m c) (embVal m c) (halfRole m c) (halfVal m c) (convBias m c) (bnScaleArr m c) (bnShiftArr m c)
    (linFirst m c) (linSecond m c) (chanBias m c) (i 0) (i 1)

/-! ## Where each window's block sits -/

/-- The printed index maps, decided over the 16 points: the two embedding windows and the result window move one
    block of 64 facts per point; every parameter window stays on its one block. -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 1) = 0 ∧ win0_5.index t (0 : Fin 1) = 0 ∧ win0_6.index t (0 : Fin 1) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 1) = 0
    ∧ win0_10.index t (0 : Fin 2) = t.val ∧ win0_10.index t (1 : Fin 2) = 0 :=
  (by decide +kernel : ∀ t : Fin grid0.N, _)

/-! ## Reading the windows' blocks -/

/-- Block `t` of an embedding window holds facts `64 t … 64 t + 63`. -/
theorem blk0_apply (c : Dev nD) (t : Fin cfg0.N) (b : Fin 64) (a : Fin 16) (k : Fin 128) (B : Fin 1024)
    (hB : B.val = 64 * t.val + b.val) :
    (iblk m c 0 t : S64x16x128.Idx → EReal) (ix3 b a k) = embRole m c (ix3 B a k) := by
  obtain ⟨a00, a01, a02, -⟩ := idx_facts t
  show V m c main_v7 (((cfg0.win 0).blk t).view.emb (ix3 b a k)) = V m c main_v7 (ix3 B a k)
  have h : ((cfg0.win 0).blk t).view.emb (ix3 b a k) = ix3 B a k := by
    funext ax; apply Fin.ext
    match ax with
    | ⟨0, _⟩ => show win0_0.index t (0 : Fin 3) * 64 + 1 * b.val = B.val; omega
    | ⟨1, _⟩ => show win0_0.index t (1 : Fin 3) * 16 + 1 * a.val = a.val; omega
    | ⟨2, _⟩ => show win0_0.index t (2 : Fin 3) * 128 + 1 * k.val = k.val; omega
  rw [h]

theorem blk1_apply (c : Dev nD) (t : Fin cfg0.N) (b : Fin 64) (a : Fin 16) (k : Fin 128) (B : Fin 1024)
    (hB : B.val = 64 * t.val + b.val) :
    (iblk m c 1 t : S64x16x128.Idx → EReal) (ix3 b a k) = embVal m c (ix3 B a k) := by
  obtain ⟨-, -, -, a10, a11, a12, -⟩ := idx_facts t
  show V m c main_v8 (((cfg0.win 1).blk t).view.emb (ix3 b a k)) = V m c main_v8 (ix3 B a k)
  have h : ((cfg0.win 1).blk t).view.emb (ix3 b a k) = ix3 B a k := by
    funext ax; apply Fin.ext
    match ax with
    | ⟨0, _⟩ => show win0_1.index t (0 : Fin 3) * 64 + 1 * b.val = B.val; omega
    | ⟨1, _⟩ => show win0_1.index t (1 : Fin 3) * 16 + 1 * a.val = a.val; omega
    | ⟨2, _⟩ => show win0_1.index t (2 : Fin 3) * 128 + 1 * k.val = k.val; omega
  rw [h]

/-- A parameter window's one block is its whole array. -/
theorem blk2_eq (c : Dev nD) (t : Fin cfg0.N) : (iblk m c 2 t : S128x256.Idx → EReal) = halfRole m c := by
  obtain ⟨-, -, -, -, -, -, a20, a21, -⟩ := idx_facts t
  funext y
  show V m c main_v11 (((cfg0.win 2).blk t).view.emb y) = V m c main_v11 y
  have h : ((cfg0.win 2).blk t).view.emb y = y := by
    funext ax; apply Fin.ext
    match ax with
    | ⟨0, _⟩ => show win0_2.index t (0 : Fin 2) * 128 + 1 * (y 0).val = (y 0).val; omega
    | ⟨1, _⟩ => show win0_2.index t (1 : Fin 2) * 256 + 1 * (y 1).val = (y 1).val; omega
  rw [h]

theorem blk3_eq (c : Dev nD) (t : Fin cfg0.N) : (iblk m c 3 t : S128x256.Idx → EReal) = halfVal m c := by
  obtain ⟨-, -, -, -, -, -, -, -, a30, a31, -⟩ := idx_facts t
  funext y
  show V m c main_v14 (((cfg0.win 3).blk t).view.emb y) = V m c main_v14 y
  have h : ((cfg0.win 3).blk t).view.emb y = y := by
    funext ax; apply Fin.ext
    match ax with
    | ⟨0, _⟩ => show win0_3.index t (0 : Fin 2) * 128 + 1 * (y 0).val = (y 0).val; omega
    | ⟨1, _⟩ => show win0_3.index t (1 : Fin 2) * 256 + 1 * (y 1).val = (y 1).val; omega
  rw [h]

theorem blk4_eq (c : Dev nD) (t : Fin cfg0.N) : (iblk m c 4 t : S256.Idx → EReal) = convBias m c := by
  obtain ⟨-, -, -, -, -, -, -, -, -, -, a40, -⟩ := idx_facts t
  funext y
  show V m c main_arg4 (((cfg0.win 4).blk t).view.emb y) = V m c main_arg4 y
  have h : ((cfg0.win 4).blk t).view.emb y = y := by
    funext ax; apply Fin.ext
    match ax with
    | ⟨0, _⟩ => show win0_4.index t (0 : Fin 1) * 256 + 1 * (y 0).val = (y 0).val; omega
  rw [h]

theorem blk5_eq (c : Dev nD) (t : Fin cfg0.N) : (iblk m c 5 t : S256.Idx → EReal) = bnScaleArr m c := by
  obtain ⟨-, -, -, -, -, -, -, -, -, -, -, a50, -⟩ := idx_facts t
  funext y
  show V m c main_v18 (((cfg0.win 5).blk t).view.emb y) = V m c main_v18 y
  have h : ((cfg0.win 5).blk t).view.emb y = y := by
    funext ax; apply Fin.ext
    match ax with
    | ⟨0, _⟩ => show win0_5.index t (0 : Fin 1) * 256 + 1 * (y 0).val = (y 0).val; omega
  rw [h]

theorem blk6_eq (c : Dev nD) (t : Fin cfg0.N) : (iblk m c 6 t : S256.Idx → EReal) = bnShiftArr m c := by
  obtain ⟨-, -, -, -, -, -, -, -, -, -, -, -, a60, -⟩ := idx_facts t
  funext y
  show V m c main_v20 (((cfg0.win 6).blk t).view.emb y) = V m c main_v20 y
  have h : ((cfg0.win 6).blk t).view.emb y = y := by
    funext ax; apply Fin.ext
    match ax with
    | ⟨0, _⟩ => show win0_6.index t (0 : Fin 1) * 256 + 1 * (y 0).val = (y 0).val; omega
  rw [h]

theorem blk7_eq (c : Dev nD) (t : Fin cfg0.N) : (iblk m c 7 t : S256x512.Idx → EReal) = linFirst m c := by
  obtain ⟨-, -, -, -, -, -, -, -, -, -, -, -, -, a70, a71, -⟩ := idx_facts t
  funext y
  show V m c main_v24 (((cfg0.win 7).blk t).view.emb y) = V m c main_v24 y
  have h : ((cfg0.win 7).blk t).view.emb y = y := by
    funext ax; apply Fin.ext
    match ax with
    | ⟨0, _⟩ => show win0_7.index t (0 : Fin 2) * 256 + 1 * (y 0).val = (y 0).val; omega
    | ⟨1, _⟩ => show win0_7.index t (1 : Fin 2) * 512 + 1 * (y 1).val = (y 1).val; omega
  rw [h]

theorem blk8_eq (c : Dev nD) (t : Fin cfg0.N) : (iblk m c 8 t : S256x512.Idx → EReal) = linSecond m c := by
  obtain ⟨-, -, -, -, -, -, -, -, -, -, -, -, -, -, -, a80, a81, -⟩ := idx_facts t
  funext y
  show V m c main_v26 (((cfg0.win 8).blk t).view.emb y) = V m c main_v26 y
  have h : ((cfg0.win 8).blk t).view.emb y = y := by
    funext ax; apply Fin.ext
    match ax with
    | ⟨0, _⟩ => show win0_8.index t (0 : Fin 2) * 256 + 1 * (y 0).val = (y 0).val; omega
    | ⟨1, _⟩ => show win0_8.index t (1 : Fin 2) * 512 + 1 * (y 1).val = (y 1).val; omega
  rw [h]

theorem blk9_eq (c : Dev nD) (t : Fin cfg0.N) : (iblk m c 9 t : S512.Idx → EReal) = chanBias m c := by
  obtain ⟨-, -, -, -, -, -, -, -, -, -, -, -, -, -, -, -, -, a90, -⟩ := idx_facts t
  funext y
  show V m c main_arg10 (((cfg0.win 9).blk t).view.emb y) = V m c main_arg10 y
  have h : ((cfg0.win 9).blk t).view.emb y = y := by
    funext ax; apply Fin.ext
    match ax with
    | ⟨0, _⟩ => show win0_9.index t (0 : Fin 1) * 512 + 1 * (y 0).val = (y 0).val; omega
  rw [h]

/-! ## What a point writes back, and the whole result -/

/-- The tile's answer depends on its arrays only through their values. -/
theorem tileOut_congr {n n' : Nat} (E V : (TEmb n).Idx → EReal) (E' V' : (TEmb n').Idx → EReal)
    (WR WV WR' WV' : THalf.Idx → EReal) (cb sc bi cb' sc' bi' : TFil.Idx → EReal) (WI WJ WI' WJ' : TLinT.Idx → EReal)
    (gb gb' : TChan.Idx → EReal) (b : Fin n) (b' : Fin n') (g : Fin 512)
    (hE : ∀ a k, E (ix3 b a k) = E' (ix3 b' a k)) (hV : ∀ a k, V (ix3 b a k) = V' (ix3 b' a k))
    (hWR : WR = WR') (hWV : WV = WV') (hcb : cb = cb') (hsc : sc = sc') (hbi : bi = bi') (hWI : WI = WI') (hWJ : WJ = WJ')
    (hgb : gb = gb') :
    tileOut E V WR WV cb sc bi WI WJ gb b g = tileOut E' V' WR' WV' cb' sc' bi' WI' WJ' gb' b' g := by
  subst hWR hWV hcb hsc hbi hWI hWJ hgb
  exact tileOut_row_congr E V E' V' WR WV cb sc bi WI WJ gb b b' g hE hV

/-- WHAT POINT `t` WRITES BACK is rows `64 t … 64 t + 63` of `launched`. -/
theorem flushed_eq (c : Dev nD) (t : Fin cfg0.N) :
    (dats m 0 c).flushed 10 t = ((cfg0.win 10).blk t).view.read (Elt Ideal) (launched m c) := by
  rw [Value.flushed10]
  have ht : t.val < 16 := lt_of_lt_of_eq t.isLt N_0
  obtain ⟨-, -, -, -, -, -, -, -, -, -, -, -, -, -, -, -, -, -, aO0, aO1⟩ := idx_facts t
  funext y
  obtain ⟨b, g, rfl⟩ : ∃ (b : Fin 64) (g : Fin 512), y = ix2 b g := ⟨y 0, y 1, eq_ix2 y⟩
  show out0_10 (iblk m c 0 t) (iblk m c 1 t) (iblk m c 2 t) (iblk m c 3 t) (iblk m c 4 t) (iblk m c 5 t) (iblk m c 6 t)
      (iblk m c 7 t) (iblk m c 8 t) (iblk m c 9 t) (ix2 b g) = launched m c (((cfg0.win 10).blk t).view.emb (ix2 b g))
  have hrow : ((cfg0.win 10).blk t).view.emb (ix2 b g) = ix2 (⟨64 * t.val + b.val, by omega⟩ : Fin 1024) g := by
    funext ax; apply Fin.ext
    match ax with
    | ⟨0, _⟩ => show win0_10.index t (0 : Fin 2) * 64 + 1 * b.val = 64 * t.val + b.val; omega
    | ⟨1, _⟩ => show win0_10.index t (1 : Fin 2) * 512 + 1 * g.val = g.val; omega
  rw [hrow, out_apply]
  exact tileOut_congr _ _ _ _ _ _ _ _ _ _ _ _ _ _ _ _ _ _ _ _ b ⟨64 * t.val + b.val, by omega⟩ g
    (fun a k => blk0_apply m c t b a k _ rfl) (fun a k => blk1_apply m c t b a k _ rfl)
    (blk2_eq m c t) (blk3_eq m c t) (blk4_eq m c t) (blk5_eq m c t) (blk6_eq m c t) (blk7_eq m c t) (blk8_eq m c t) (blk9_eq m c t)

/-- An index of the result is in point `t`'s block iff each coordinate is in the block's range on its axis. -/
theorem mem_blk (t : Fin cfg0.N) (i : S1024x512.Idx) :
    i ∈ ((cfg0.win 10).blk t).view.set ↔ ∀ a : Fin 2, win0_10.index t a * S64x512.size a ≤ (i a).val ∧ (i a).val < win0_10.index t a * S64x512.size a + S64x512.size a := by
  show i ∈ ((View.whole main_v27).slice (win0_10.rect t)).set ↔ _
  rw [View.set_slice_whole, Rect.mem_set_unit]
  exact Iff.rfl

/-- The 16 row blocks tile the result: row `r` is in the block of point `r / 64`. -/
theorem cover (i : S1024x512.Idx) : ∃ t : Fin cfg0.N, (cfg0.win 10).flush t = true ∧ i ∈ ((cfg0.win 10).blk t).view.set := by
  have hi0 : (i 0).val < 1024 := (i 0).isLt
  have hi1 : (i 1).val < 512 := (i 1).isLt
  have hq : (i 0).val / 64 < cfg0.N := lt_of_lt_of_eq (by omega : (i 0).val / 64 < 16) N_0.symm
  refine ⟨⟨(i 0).val / 64, hq⟩, flush0_10 _, ?_⟩
  rw [mem_blk]
  obtain ⟨-, -, -, -, -, -, -, -, -, -, -, -, -, -, -, -, -, -, aO0, aO1⟩ := idx_facts ⟨(i 0).val / 64, hq⟩
  have aO0' : win0_10.index ⟨(i 0).val / 64, hq⟩ (0 : Fin 2) = (i 0).val / 64 := aO0
  intro a
  match a with
  | ⟨0, _⟩ =>
    show win0_10.index ⟨(i 0).val / 64, _⟩ (0 : Fin 2) * 64 ≤ (i 0).val ∧ (i 0).val < win0_10.index ⟨(i 0).val / 64, _⟩ (0 : Fin 2) * 64 + 64
    omega
  | ⟨1, _⟩ =>
    show win0_10.index ⟨(i 0).val / 64, _⟩ (1 : Fin 2) * 512 ≤ (i 1).val ∧ (i 1).val < win0_10.index ⟨(i 0).val / 64, _⟩ (1 : Fin 2) * 512 + 512
    omega

/-- THE RESULT after the run is `launched`. -/
theorem final (c : Dev nD) : (dats m 0 c).arrAt 10 cfg0.N = launched m c :=
  (dats m 0 c).arrAt_eq_of_cover 10 (launched m c) (fun t _ => flushed_eq m c t) cover

/-- The run, read: the result at `launched`, the arguments unchanged. -/
theorem run : θ_run defs (onTc (τ := τ) (main (F := Ideal))) ⟨m, fun _ => 0, ρ⟩ fun r => ∀ c : Dev nD,
      r.2.mem ((c : Thread nD τ).loc main_v27) = launched m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10) :=
  (θ_run defs _ _).mono (fun r h c => ⟨(h c).1.trans (final m c), (h c).2⟩) (Value.run_blocks m ρ)

end Cert.KernelIdeal.Blocks

end
-- ==== Proof.HostArrays.lean ====
/-
  What the batch tiles are fed: the arrays the host prepares before the launch, read at an index as the argument
  arrays. Narrowing to the 16-bit format is the identity on extended reals, so the embeddings arrive as they are; the
  convolution's weight arrives as its two column halves, transposed; the normalisation arrives folded to the scale
  `γ/√(σ² + ε)` and the shift `β - μ·scale`; the two linear maps arrive as the two column halves of the joint weight,
  transposed.
-/
import proofs.«138758_j28252294873241_1_alg».proof.Proof.Gen.KernelIdeal.Frame
import proofs.«138758_j28252294873241_1_alg».proof.Proof.Spec
import Idealize.ShloMosaic.Lib.Pipeline.Value
import Idealize.ShloMosaic.Lib.ValueIdx
import Idealize.ShloMosaic.Lib.ValueLayout
import Idealize.ShloMosaic.Lib.StableHlo.Run

noncomputable section

namespace Cert.KernelIdeal.HostArrays

open Idealize.ShloMosaic Idealize.ShloMosaic.TcCoe Idealize.ShloMosaic.ValueIdx Idealize.SL.Sem
open Cert.KernelIdeal Cert.KernelIdeal.Gen Cert.FactBlock

variable (m : (ℓ : Loc nD τ sig) → Buf (Elt Ideal) ℓ) (c : Dev nD)

/-- The per-filter argument arrays, at their literal type. -/
abbrev argGamma : S256.Idx → EReal := m ((c : Thread nD τ).loc main_arg5)
abbrev argBeta : S256.Idx → EReal := m ((c : Thread nD τ).loc main_arg6)
abbrev argMean : S256.Idx → EReal := m ((c : Thread nD τ).loc main_arg7)
abbrev argVar : S256.Idx → EReal := m ((c : Thread nD τ).loc main_arg8)

/-- The slot's role index as the table lookup takes it: a negative index counted from the table's end. -/
def roleIdx (x0 : IVec S1024x16 32) : IVec S1024x16x1 32 :=
  broadcastInDim S1024x16x1 ![0, 1] bcast_S1024x16_S1024x16x1_0_1
    (select (cmpi .slt x0 (broadcastInDim S1024x16 ![] bcast_S_S1024x16 (constantI S_ 32 0#32)))
      (addi x0 (broadcastInDim S1024x16 ![] bcast_S_S1024x16 (constantI S_ 32 1000#32))) x0)

/-- The role embeddings: the table's rows looked up by the role indices. -/
def roleEmb (x0 : IVec S1024x16 32) (x2 : FVec Ideal S1000x128 .f32) : FVec Ideal S1024x16x128 .f32 :=
  Host.gather gather_S1000x128_S1024x16x1_S1024x16x128_2_0_n_n_0_2_1128 x2 (roleIdx x0)

/-! ## Each prepared array as a term over the argument arrays -/

/-- The role embeddings, narrowed. -/
theorem fn_v7 : (V m c main_v7 : S1024x16x128.Idx → EReal)
    = truncf .bf16 (roleEmb (m ((c : Thread nD τ).loc main_arg0)) (m ((c : Thread nD τ).loc main_arg2))) bitsLt_bf16_f32 := by
  dsimp only [Gen.V, Gen.hostOps0]; after_results; rfl

/-- The value embeddings, narrowed. -/
theorem fn_v8 : (V m c main_v8 : S1024x16x128.Idx → EReal)
    = (truncf .bf16 (m ((c : Thread nD τ).loc main_arg1) : FVec Ideal S1024x16x128 .f32) bitsLt_bf16_f32 : FVec Ideal S1024x16x128 .bf16) := by
  dsimp only [Gen.V, Gen.hostOps0]; after_results

/-- The first column band of the convolution's weight, transposed and narrowed. -/
theorem fn_v11 : (V m c main_v11 : S128x256.Idx → EReal)
    = truncf .bf16 (transpose S128x256 [1, 0]
        (extractStridedSlice S256x128 ![0, 0] (m ((c : Thread nD τ).loc main_arg3) : FVec Ideal S256x256 .f32)
          slices_S256x256_S256x128_0_0)
        transposes_S256x128_S128x256_1_0 : FVec Ideal S128x256 .f32) bitsLt_bf16_f32 := by
  dsimp only [Gen.V, Gen.hostOps0]; after_results

/-- The second column band of the convolution's weight, transposed and narrowed. -/
theorem fn_v14 : (V m c main_v14 : S128x256.Idx → EReal)
    = truncf .bf16 (transpose S128x256 [1, 0]
        (extractStridedSlice S256x128 ![0, 128] (m ((c : Thread nD τ).loc main_arg3) : FVec Ideal S256x256 .f32)
          slices_S256x256_S256x128_0_128)
        transposes_S256x128_S128x256_1_0 : FVec Ideal S128x256 .f32) bitsLt_bf16_f32 := by
  dsimp only [Gen.V, Gen.hostOps0]; after_results

/-- The scale as the host computes it: `γ / √(σ² + ε)`, array-wise. -/
def scaleArr (γ v : FVec Ideal S256 .f32) : FVec Ideal S256 .f32 :=
  Host.divf (F := Ideal) γ
    (Host.sqrt (F := Ideal) (addf v (broadcastInDim S256 ![] bcast_S_S256 (constant (F := Ideal) S_ .f32 0x3727C5AC#32))))

/-- The scale array. -/
theorem fn_v18 : (V m c main_v18 : S256.Idx → EReal) = scaleArr (argGamma m c) (argVar m c) := by
  dsimp only [Gen.V, Gen.hostOps0]; after_results; rfl

/-- The shift array: `β - μ · scale`, array-wise. -/
theorem fn_v20 : (V m c main_v20 : S256.Idx → EReal)
    = subf (argBeta m c : FVec Ideal S256 .f32) (mulf (argMean m c : FVec Ideal S256 .f32) (scaleArr (argGamma m c) (argVar m c))) := by
  dsimp only [Gen.V, Gen.hostOps0]; after_results_simp; rfl

/-- The first column band of the joint weight, transposed and narrowed. -/
theorem fn_v24 : (V m c main_v24 : S256x512.Idx → EReal)
    = truncf .bf16 (transpose S256x512 [1, 0]
        (extractStridedSlice S512x256 ![0, 0] (m ((c : Thread nD τ).loc main_arg9) : FVec Ideal S512x512 .f32)
          slices_S512x512_S512x256_0_0)
        transposes_S512x256_S256x512_1_0 : FVec Ideal S256x512 .f32) bitsLt_bf16_f32 := by
  dsimp only [Gen.V, Gen.hostOps0]; after_results

/-- The second column band of the joint weight, transposed and narrowed. -/
theorem fn_v26 : (V m c main_v26 : S256x512.Idx → EReal)
    = truncf .bf16 (transpose S256x512 [1, 0]
        (extractStridedSlice S512x256 ![0, 256] (m ((c : Thread nD τ).loc main_arg9) : FVec Ideal S512x512 .f32)
          slices_S512x512_S512x256_0_256)
        transposes_S512x256_S256x512_1_0 : FVec Ideal S256x512 .f32) bitsLt_bf16_f32 := by
  dsimp only [Gen.V, Gen.hostOps0]; after_results

/-! ## Read at an index -/

/-- A column band of a matrix from column `o`, transposed, reads at `(k, f)` the matrix at `(f, o + k)`. -/
theorem bandT_apply {n0 n1 w : Nat} (o : Nat) (X : (⟨2, ![n0, n1]⟩ : Shape).Idx → EReal)
    (hs : (⟨2, ![n0, n1]⟩ : Shape).Slices ![0, o] ⟨2, ![n0, w]⟩)
    (ht : (⟨2, ![n0, w]⟩ : Shape).Transposes [1, 0] ⟨2, ![w, n0]⟩)
    (k : Fin w) (f : Fin n0) (k' : Fin n1) (hk : k'.val = o + k.val) :
    transpose ⟨2, ![w, n0]⟩ [1, 0] (extractStridedSlice ⟨2, ![n0, w]⟩ ![0, o] X hs) ht (ix2 k f) = X (ix2 f k') :=
  (transpose_ix2_apply _ ht k f).trans (slice2_axis1_apply o X hs f k k' hk)

/-- The host's scale at filter `f` is `γ f / √(σ² f + ε)`. -/
theorem scaleArr_apply (γ v : FVec Ideal S256 .f32) (f : Fin 256) : scaleArr γ v (ix1 f) = bnScale γ v f := by
  unfold scaleArr bnScale eps
  show Ideal.div (γ (ix1 f)) (Ideal.sqrt (v (ix1 f) + _)) = _
  rfl

/-- The first operand is the looked-up role embeddings. -/
theorem V_v7 : (V m c main_v7 : S1024x16x128.Idx → EReal)
    = roleEmb (m ((c : Thread nD τ).loc main_arg0)) (m ((c : Thread nD τ).loc main_arg2)) := by
  exact (fn_v7 m c).trans (funext fun _ => rfl)

/-- The second operand is the value embeddings. -/
theorem V_v8 : (V m c main_v8 : S1024x16x128.Idx → EReal) = m ((c : Thread nD τ).loc main_arg1) := by
  exact (fn_v8 m c).trans (funext fun _ => rfl)

/-- The third operand at `(k, f)` is the convolution's weight at filter `f`, role coordinate `k`. -/
theorem V_v11 (k : Fin 128) (f : Fin 256) :
    (V m c main_v11 : S128x256.Idx → EReal) (ix2 k f) = m ((c : Thread nD τ).loc main_arg3) (ix2 f (lo128 k)) := by
  rw [fn_v11, truncf_apply]
  exact bandT_apply 0 _ _ _ k f (lo128 k) (Nat.zero_add _).symm

/-- The fourth operand at `(k, f)` is the convolution's weight at filter `f`, value coordinate `k`. -/
theorem V_v14 (k : Fin 128) (f : Fin 256) :
    (V m c main_v14 : S128x256.Idx → EReal) (ix2 k f) = m ((c : Thread nD τ).loc main_arg3) (ix2 f (hi128 k)) := by
  rw [fn_v14, truncf_apply]
  exact bandT_apply 128 _ _ _ k f (hi128 k) rfl

/-- The sixth operand is the normalisation's scale. -/
theorem V_v18 (f : Fin 256) :
    (V m c main_v18 : S256.Idx → EReal) (ix1 f)
      = bnScale (argGamma m c) (argVar m c) f := by
  rw [fn_v18, scaleArr_apply]

/-- The seventh operand is the normalisation's shift `β - μ · scale`. -/
theorem V_v20 (f : Fin 256) :
    (V m c main_v20 : S256.Idx → EReal) (ix1 f)
      = argBeta m c (ix1 f) - argMean m c (ix1 f) * bnScale (argGamma m c) (argVar m c) f := by
  rw [fn_v20, subf_apply, mulf_apply, scaleArr_apply]

/-- The eighth operand at `(f, g)` is the joint weight at channel `g`, filter `f` of the first map. -/
theorem V_v24 (f : Fin 256) (g : Fin 512) :
    (V m c main_v24 : S256x512.Idx → EReal) (ix2 f g) = m ((c : Thread nD τ).loc main_arg9) (ix2 g (lo256 f)) := by
  rw [fn_v24, truncf_apply]
  exact bandT_apply 0 _ _ _ f g (lo256 f) (Nat.zero_add _).symm

/-- The ninth operand at `(f, g)` is the joint weight at channel `g`, filter `f` of the second map. -/
theorem V_v26 (f : Fin 256) (g : Fin 512) :
    (V m c main_v26 : S256x512.Idx → EReal) (ix2 f g) = m ((c : Thread nD τ).loc main_arg9) (ix2 g (hi256 f)) := by
  rw [fn_v26, truncf_apply]
  exact bandT_apply 256 _ _ _ f g (hi256 f) rfl

end Cert.KernelIdeal.HostArrays

end
-- ==== Proof.Alg.lean ====
/-
  The two spellings of the fact block agree (see Spec.lean for the two): `tileOut` on all 1024 facts, fed the
  convolution's weight cut in two and transposed, the folded scale `s = γ/√(σ² + ε)` and shift `β - μ·s`, and the two
  linear maps transposed, is `refOut`.
-/
import proofs.«138758_j28252294873241_1_alg».proof.Proof.Spec
import Mathlib.Algebra.BigOperators.Fin
import Mathlib.Data.EReal.Basic
import Mathlib.Data.EReal.Operations
import Mathlib.Analysis.Real.Sqrt

noncomputable section

namespace Cert.FactBlock

open Idealize.ShloMosaic Idealize.ShloMosaic.ValueIdx

/-! ## The joined input, half by half -/

/-- On the first 128 joined coordinates the joined input is the role embedding. -/
theorem joined_lo (E V : (TEmb 1024).Idx → EReal) (b : Fin 1024) (a : Fin 16) (k : Fin 128) :
    joined E V b a (lo128 k) = E (ix3 b a k) := by
  unfold joined
  rw [dif_pos (show (lo128 k).val < 128 from k.isLt)]

/-- On the last 128 joined coordinates the joined input is the value embedding. -/
theorem joined_hi (E V : (TEmb 1024).Idx → EReal) (b : Fin 1024) (a : Fin 16) (k : Fin 128) :
    joined E V b a (hi128 k) = V (ix3 b a k) := by
  unfold joined
  have hk : ¬ (hi128 k).val < 128 := by show ¬ (128 + k.val < 128); omega
  rw [dif_neg hk]
  have hidx : (⟨(hi128 k).val - 128, by omega⟩ : Fin 128) = k := Fin.ext (by show 128 + k.val - 128 = k.val; omega)
  rw [hidx]

/-- The contraction over the 256 joined coordinates is the sum of the two contractions over 128 coordinates:
    the role embedding against the first half of the weight's row, the value embedding against the second. -/
theorem conv_split (E V : (TEmb 1024).Idx → EReal) (cw : TConv.Idx → EReal) (b : Fin 1024) (a : Fin 16) (f : Fin 256) :
    (∑ k : Fin 256, joined E V b a k * cw (ix2 f k)) =
      (∑ k : Fin 128, E (ix3 b a k) * cw (ix2 f (lo128 k))) + (∑ k : Fin 128, V (ix3 b a k) * cw (ix2 f (hi128 k))) := by
  have hsplit := Fin.sum_univ_add (M := EReal) (a := 128) (b := 128) (fun k : Fin (128 + 128) => joined E V b a k * cw (ix2 f k))
  have hlo : ∀ k : Fin 128, (Fin.castAdd 128 k : Fin (128 + 128)) = lo128 k := fun k => Fin.ext rfl
  have hhi : ∀ k : Fin 128, (Fin.natAdd 128 k : Fin (128 + 128)) = hi128 k := fun k => Fin.ext rfl
  simp only [hlo, hhi, joined_lo, joined_hi] at hsplit
  exact hsplit

/-! ## The normalisation, folded -/

/-- With a real mean `m`, a real scale `s` and a real shift `c`, centring then scaling then shifting any extended
    real `y` is scaling it and adding the folded shift `c - m·s`. At `y = ±∞` both sides are the infinity of the
    sign of `±s`, or `c` when `s = 0`. -/
theorem affine_fold (y : EReal) (m s c : ℝ) :
    (y - (m : EReal)) * (s : EReal) + (c : EReal) = y * (s : EReal) + ((c : EReal) - (m : EReal) * (s : EReal)) := by
  induction y using EReal.rec with
  | bot =>
    rw [EReal.bot_sub]
    rcases lt_trichotomy s 0 with hs | hs | hs
    · rw [EReal.bot_mul_coe_of_neg hs, ← EReal.coe_mul, ← EReal.coe_sub, EReal.top_add_coe, EReal.top_add_coe]
    · subst hs; simp
    · rw [EReal.bot_mul_coe_of_pos hs, EReal.bot_add, EReal.bot_add]
  | coe r =>
    rw [← EReal.coe_sub, ← EReal.coe_mul, ← EReal.coe_add, ← EReal.coe_mul, ← EReal.coe_mul, ← EReal.coe_sub,
      ← EReal.coe_add]
    congr 1; ring
  | top =>
    rw [EReal.top_sub_coe]
    rcases lt_trichotomy s 0 with hs | hs | hs
    · rw [EReal.top_mul_coe_of_neg hs, EReal.bot_add, EReal.bot_add]
    · subst hs; simp
    · rw [EReal.top_mul_coe_of_pos hs, ← EReal.coe_mul, ← EReal.coe_sub, EReal.top_add_coe, EReal.top_add_coe]

/-! ## The scale is a real number -/

/-- The normalisation's `ε` is a real number. -/
theorem eps_real : ∃ e : ℝ, eps = (e : EReal) := by
  unfold eps
  simp [Ideal.ofBits, Ideal.ieee]
  exact ⟨_, (EReal.coe_mul _ _).symm⟩

/-- With a real `γ`, a real variance and `σ² + ε > 0` the scale `γ / √(σ² + ε)` is a real number. -/
theorem bnScale_real (γ v : TFil.Idx → EReal) (f : Fin 256)
    (hγ : ∃ r : ℝ, γ (ix1 f) = (r : EReal)) (hv : ∃ r : ℝ, v (ix1 f) = (r : EReal))
    (hpos : 0 < v (ix1 f) + eps) : ∃ s : ℝ, bnScale γ v f = (s : EReal) := by
  obtain ⟨g, hg⟩ := hγ
  obtain ⟨w, hw⟩ := hv
  obtain ⟨e, he⟩ := eps_real
  rw [hw, he, ← EReal.coe_add] at hpos
  have hwe : 0 < w + e := by exact_mod_cast hpos
  have hr : Real.sqrt (w + e) ≠ 0 := (Real.sqrt_pos.mpr hwe).ne'
  unfold bnScale
  rw [hg, hw, he, ← EReal.coe_add, Ideal.sqrt_coe, if_neg (not_lt.mpr hwe.le), Ideal.div_coe hr, ← EReal.coe_mul]
  exact ⟨_, rfl⟩

/-! ## The features agree -/

/-- A slot's features in the tile's spelling are its features in the textbook's. -/
theorem feat_eq
    (E V : (TEmb 1024).Idx → EReal) (cw : TConv.Idx → EReal) (cb γ β μ v : TFil.Idx → EReal)
    (WR WV : THalf.Idx → EReal) (sc bi : TFil.Idx → EReal)
    (hγ : ∀ f : Fin 256, ∃ r : ℝ, γ (ix1 f) = (r : EReal)) (hβ : ∀ f : Fin 256, ∃ r : ℝ, β (ix1 f) = (r : EReal))
    (hμ : ∀ f : Fin 256, ∃ r : ℝ, μ (ix1 f) = (r : EReal)) (hv : ∀ f : Fin 256, ∃ r : ℝ, v (ix1 f) = (r : EReal))
    (hpos : ∀ f : Fin 256, 0 < v (ix1 f) + eps)
    (hWR : ∀ (k : Fin 128) (f : Fin 256), WR (ix2 k f) = cw (ix2 f (lo128 k)))
    (hWV : ∀ (k : Fin 128) (f : Fin 256), WV (ix2 k f) = cw (ix2 f (hi128 k)))
    (hsc : ∀ f : Fin 256, sc (ix1 f) = bnScale γ v f)
    (hbi : ∀ f : Fin 256, bi (ix1 f) = β (ix1 f) - μ (ix1 f) * bnScale γ v f)
    (b : Fin 1024) (a : Fin 16) (f : Fin 256) :
    tileFeat E V WR WV cb sc bi b a f = refFeat E V cw cb γ β μ v b a f := by
  obtain ⟨s, hs⟩ := bnScale_real γ v f (hγ f) (hv f) (hpos f)
  obtain ⟨c, hc⟩ := hβ f
  obtain ⟨m, hm⟩ := hμ f
  unfold tileFeat refFeat
  simp only [hWR, hWV]
  rw [conv_split E V cw b a f, hsc f, hbi f, hs, hc, hm, affine_fold]

/-! ## The two spellings agree -/

/-- With real normalisation parameters and `σ² + ε > 0` the tile's spelling and the textbook's are one function. -/
theorem tile_eq_ref
    (E V : (TEmb 1024).Idx → EReal) (cw : TConv.Idx → EReal) (cb γ β μ v : TFil.Idx → EReal)
    (gw : TLin.Idx → EReal) (gb : TChan.Idx → EReal)
    (WR WV : THalf.Idx → EReal) (sc bi : TFil.Idx → EReal) (WI WJ : TLinT.Idx → EReal)
    (hγ : ∀ f : Fin 256, ∃ r : ℝ, γ (ix1 f) = (r : EReal)) (hβ : ∀ f : Fin 256, ∃ r : ℝ, β (ix1 f) = (r : EReal))
    (hμ : ∀ f : Fin 256, ∃ r : ℝ, μ (ix1 f) = (r : EReal)) (hv : ∀ f : Fin 256, ∃ r : ℝ, v (ix1 f) = (r : EReal))
    (hpos : ∀ f : Fin 256, 0 < v (ix1 f) + eps)
    (hWR : ∀ (k : Fin 128) (f : Fin 256), WR (ix2 k f) = cw (ix2 f (lo128 k)))
    (hWV : ∀ (k : Fin 128) (f : Fin 256), WV (ix2 k f) = cw (ix2 f (hi128 k)))
    (hsc : ∀ f : Fin 256, sc (ix1 f) = bnScale γ v f)
    (hbi : ∀ f : Fin 256, bi (ix1 f) = β (ix1 f) - μ (ix1 f) * bnScale γ v f)
    (hWI : ∀ (f : Fin 256) (g : Fin 512), WI (ix2 f g) = gw (ix2 g (lo256 f)))
    (hWJ : ∀ (f : Fin 256) (g : Fin 512), WJ (ix2 f g) = gw (ix2 g (hi256 f)))
    (b : Fin 1024) (g : Fin 512) :
    tileOut E V WR WV cb sc bi WI WJ gb b g = refOut E V cw cb γ β μ v gw gb b g := by
  have hx : tileFeat E V WR WV cb sc bi = refFeat E V cw cb γ β μ v := by
    funext b a f
    exact feat_eq E V cw cb γ β μ v WR WV sc bi hγ hβ hμ hv hpos hWR hWV hsc hbi b a f
  have hI : tileLin (refFeat E V cw cb γ β μ v) WI = refLin (refFeat E V cw cb γ β μ v) gw lo256 := by
    funext b a g
    unfold tileLin refLin
    simp only [hWI]
  have hJ : tileLin (refFeat E V cw cb γ β μ v) WJ = refLin (refFeat E V cw cb γ β μ v) gw hi256 := by
    funext b a g
    unfold tileLin refLin
    simp only [hWJ]
  unfold tileOut refOut
  rw [hx, hI, hJ]

end Cert.FactBlock

end
-- ==== Proof.PreFacts.lean ====
/-
  What the precondition says of the normalisation's parameters: each of γ, β, μ, σ² is a real number at every
  filter, and σ² + ε is positive there.
-/
import proofs.«138758_j28252294873241_1_alg».proof.Pre_finite_inputs
import proofs.«138758_j28252294873241_1_alg».proof.Proof.Gen.Pre_finite_inputs
import proofs.«138758_j28252294873241_1_alg».proof.Proof.Spec
import Idealize.ShloMosaic.Lib.ReduceAll

noncomputable section

namespace Cert.FactBlock

open Idealize.ShloMosaic Idealize.ShloMosaic.ValueIdx Cert.Pre_finite_inputs

/-- On the extended reals, `|x| < +∞` (the absolute value being `max x (-x)`, the bound the binary32 pattern of +∞)
    says that `x` is a real number: at `⊥` and at `⊤` the absolute value is `⊤` itself. -/
theorem real_of_abs_lt_top (x : EReal)
    (h : Ideal.cmp .olt (max x (-x)) (Ideal.ofBits .f32 0x7F800000#32) = 1#1) : ∃ r : ℝ, x = (r : EReal) := by
  have htop : Ideal.ofBits .f32 0x7F800000#32 = (⊤ : EReal) := by simp [Ideal.ofBits, Ideal.ieee]
  rw [htop] at h
  induction x using EReal.rec with
  | bot => simp [Ideal.cmp] at h
  | top => simp [Ideal.cmp] at h
  | coe r => exact ⟨r, rfl⟩

/-- The comparison `a > 0`, the zero being the binary32 pattern of +0, says `0 < a`. -/
theorem pos_of_cmp_ogt_zero (a : EReal) (h : Ideal.cmp .ogt a (Ideal.ofBits .f32 0x00000000#32) = 1#1) : 0 < a := by
  have hzero : Ideal.ofBits .f32 0x00000000#32 = (0 : EReal) := by simp [Ideal.ofBits, Ideal.ieee]
  rw [hzero] at h
  have hb : decide (0 < a) = true := by
    cases hd : decide (0 < a) with
    | true => rfl
    | false =>
      rw [show Ideal.cmp .ogt a 0 = BitVec.ofBool (decide (0 < a)) from rfl, hd] at h
      exact absurd h (by decide)
  exact of_decide_eq_true hb

/-- The rank-0 shape has one index. -/
instance subsingleton_scalar_idx : Subsingleton S_.Idx := ⟨fun a b => funext fun d => d.elim0⟩

/-- The printed precondition, all ones, gives the real-ness of γ, β, μ, σ² and the positivity of σ² + ε. -/
theorem of_pre (x0 : IVec S1024x16 32) (x1 : FVec Ideal S1024x16x128 .f32) (x2 : FVec Ideal S1000x128 .f32)
    (x3 : FVec Ideal S256x256 .f32) (x4 x5 x6 x7 x8 : FVec Ideal S256 .f32) (x9 : FVec Ideal S512x512 .f32)
    (x10 : FVec Ideal S512 .f32)
    (h : Cert.Pre_finite_inputs.fn (F := Ideal) x0 x1 x2 x3 x4 x5 x6 x7 x8 x9 x10 = fun _ => 1#1) :
    (∀ f : Fin 256, ∃ r : ℝ, x5 (ix1 f) = (r : EReal)) ∧ (∀ f : Fin 256, ∃ r : ℝ, x6 (ix1 f) = (r : EReal))
      ∧ (∀ f : Fin 256, ∃ r : ℝ, x7 (ix1 f) = (r : EReal)) ∧ (∀ f : Fin 256, ∃ r : ℝ, x8 (ix1 f) = (r : EReal))
      ∧ (∀ f : Fin 256, 0 < x8 (ix1 f) + eps) := by
  -- the predicate's one value is the conjunction of eleven `all`s
  have h0 := congrFun h ValueIdx.ix0
  dsimp only [fn, fn_part1, fn_part2, fn_part3] at h0
  simp only [andi, IntOp.andi_eq_one] at h0
  obtain ⟨⟨⟨⟨⟨⟨⟨⟨⟨⟨_, _⟩, _⟩, _⟩, h5⟩, h6⟩, h7⟩, h8⟩, _⟩, _⟩, h11⟩ := h0
  refine ⟨fun f => ?_, fun f => ?_, fun f => ?_, fun f => ?_, fun f => ?_⟩
  · exact real_of_abs_lt_top _ (Host.reduce_andi_all _ _ _ _ _ h5 (ix1 f))
  · exact real_of_abs_lt_top _ (Host.reduce_andi_all _ _ _ _ _ h6 (ix1 f))
  · exact real_of_abs_lt_top _ (Host.reduce_andi_all _ _ _ _ _ h7 (ix1 f))
  · exact real_of_abs_lt_top _ (Host.reduce_andi_all _ _ _ _ _ h8 (ix1 f))
  · unfold eps
    exact pos_of_cmp_ogt_zero _ (Host.reduce_andi_all _ _ _ _ _ h11 (ix1 f))

end Cert.FactBlock

end
-- ==== Proof.RefValue.lean ====
/-
  The reference's result, read at an index, is the textbook fact block `refOut` of its argument arrays, the role
  embeddings being whatever its table lookup gives.
-/
import proofs.«138758_j28252294873241_1_alg».proof.Proof.Gen.ReferenceIdeal.Read
import proofs.«138758_j28252294873241_1_alg».proof.Proof.Spec
import Idealize.ShloMosaic.PureOps.Reduce

noncomputable section

namespace Cert.ReferenceIdeal.RefValue

open Idealize.ShloMosaic Idealize.ShloMosaic.ValueIdx Cert.ReferenceIdeal Cert.ReferenceIdeal.Gen Cert.ReferenceIdeal.Read
open Cert.FactBlock

section Stages

variable (x0 : IVec S1024x16 32) (x1 : FVec Ideal S1024x16x128 .f32) (x2 : FVec Ideal S1000x128 .f32)
    (x3 : FVec Ideal S256x256 .f32) (x4 x5 x6 x7 x8 : FVec Ideal S256 .f32) (x9 : FVec Ideal S512x512 .f32)
    (x10 : FVec Ideal S512 .f32)

/-- The concatenation along the last axis, read at `(b, a, k)`, is the joined input: the role embedding for the
    first 128 coordinates, the value embedding for the last 128. -/
theorem joined_at (b : Fin 1024) (a : Fin 16) (k : Fin 256) :
    val_main_v7 (F := Ideal) x0 x1 x2 (ix3 b a k) = joined (val_main_v6 (F := Ideal) x0 x2) x1 b a k := by
  unfold val_main_v7 joined
  generalize val_main_v6 (F := Ideal) x0 x2 = E
  by_cases h : k.val < 128
  · rw [dif_pos h]
    exact concatenate_pair_apply_left (2 : Fin 3) E x1 concatenates_S1024x16x128_S1024x16x128_S1024x16x256_d2
      (ix3 b a k) rfl (ix3 b a ⟨k.val, h⟩)
      (fun c => match c with | ⟨0, _⟩ => rfl | ⟨1, _⟩ => rfl | ⟨2, _⟩ => rfl)
  · rw [dif_neg h]
    exact concatenate_pair_apply_right (2 : Fin 3) E x1 concatenates_S1024x16x128_S1024x16x128_S1024x16x256_d2
      (ix3 b a k) rfl rfl (ix3 b a ⟨k.val - 128, by omega⟩)
      (fun c => match c with
        | ⟨0, _⟩ => fun _ => rfl
        | ⟨1, _⟩ => fun _ => rfl
        | ⟨2, _⟩ => fun hc => absurd rfl hc)
      (by show (k.val - 128) + 128 = k.val; omega)

/-- The convolution: the contraction of the joined input against the weight's row `f`. -/
theorem conv_at (b : Fin 1024) (a : Fin 16) (f : Fin 256) :
    val_main_v8 (F := Ideal) x0 x1 x2 x3 (ix3 b a f)
      = ∑ k : Fin 256, joined (val_main_v6 (F := Ideal) x0 x2) x1 b a k * x3 (ix2 f k) := by
  rw [val_main_v8_apply]
  refine Finset.sum_congr rfl fun k _ => ?_
  have el : lidx_main_v8 (ix3 b a f) k = ix3 b a k :=
    funext fun c => match c with | ⟨0, _⟩ => rfl | ⟨1, _⟩ => rfl | ⟨2, _⟩ => rfl
  have er : ridx_main_v8 (ix3 b a f) k = ix2 f k :=
    funext fun c => match c with | ⟨0, _⟩ => rfl | ⟨1, _⟩ => rfl
  rw [el, er, joined_at]

/-- The convolution's bias, broadcast over facts and slots. -/
theorem bias_at (b : Fin 1024) (a : Fin 16) (f : Fin 256) :
    val_main_v10 (F := Ideal) x4 (ix3 b a f) = x4 (ix1 f) := by
  rw [val_main_v10_apply, val_main_v9_apply]
  exact congrArg x4 (funext fun c => match c with | ⟨0, _⟩ => rfl)

/-- The normalisation's mean, broadcast over facts and slots. -/
theorem mean_at (b : Fin 1024) (a : Fin 16) (f : Fin 256) :
    val_main_v13 (F := Ideal) x7 (ix3 b a f) = x7 (ix1 f) := by
  rw [val_main_v13_apply, val_main_v12_apply]
  exact congrArg x7 (funext fun c => match c with | ⟨0, _⟩ => rfl)

/-- The normalisation's shift, broadcast over facts and slots. -/
theorem shift_at (b : Fin 1024) (a : Fin 16) (f : Fin 256) :
    val_main_v23 (F := Ideal) x6 (ix3 b a f) = x6 (ix1 f) := by
  rw [val_main_v23_apply, val_main_v22_apply]
  exact congrArg x6 (funext fun c => match c with | ⟨0, _⟩ => rfl)

/-- The normalisation's scale `γ / √(σ² + ε)`, broadcast over facts and slots. -/
theorem scale_at (b : Fin 1024) (a : Fin 16) (f : Fin 256) :
    val_main_v20 (F := Ideal) x5 x8 (ix3 b a f) = bnScale x5 x8 f := by
  have e : idx_main_v19 (idx_main_v20 (ix3 b a f)) = ix1 f := funext fun c => match c with | ⟨0, _⟩ => rfl
  rw [val_main_v20_apply, val_main_v19_apply, val_main_v18_apply, val_main_v17_apply, val_main_v16_apply,
    val_main_v15_apply, val_main_cst_apply, e]
  unfold bnScale eps
  simp only [Ideal.hostDivf_def, Ideal.hostUnary_sqrt_def, Ideal.addf_def, Ideal.ofBits_def]

/-- A slot's features: the convolution, its bias, the normalisation and the rectifier are the textbook's. -/
theorem feat_at (b : Fin 1024) (a : Fin 16) (f : Fin 256) :
    val_main_v25 (F := Ideal) x0 x1 x2 x3 x4 x5 x6 x7 x8 (ix3 b a f)
      = refFeat (val_main_v6 (F := Ideal) x0 x2) x1 x3 x4 x5 x6 x7 x8 b a f := by
  rw [val_main_v25_apply, val_main_v24_apply, val_main_v21_apply, val_main_v14_apply, val_main_v11_apply,
    conv_at, bias_at, mean_at, scale_at, shift_at, val_main_call0_v0_apply, val_main_call0_cst_apply]
  unfold refFeat
  simp only [Ideal.maximumf_def, Ideal.addf_def, Ideal.subf_def, Ideal.mulf_def, Ideal.ofBits_def, Ideal.ofBits_zero_f32]

/-- The first linear map: the features against the first 256 columns of the weight's row `g`. -/
theorem linI_at (b : Fin 1024) (a : Fin 16) (g : Fin 512) :
    val_main_v28 (F := Ideal) x0 x1 x2 x3 x4 x5 x6 x7 x8 x9 (ix3 b a g)
      = refLin (refFeat (val_main_v6 (F := Ideal) x0 x2) x1 x3 x4 x5 x6 x7 x8) x9 lo256 b a g := by
  rw [val_main_v28_apply]
  unfold refLin
  refine Finset.sum_congr rfl fun f _ => ?_
  have el : lidx_main_v28 (ix3 b a g) f = ix3 b a f :=
    funext fun c => match c with | ⟨0, _⟩ => rfl | ⟨1, _⟩ => rfl | ⟨2, _⟩ => rfl
  have er : idx_main_v26 (ridx_main_v28 (ix3 b a g) f) = ix2 g (lo256 f) :=
    funext fun c => match c with | ⟨0, _⟩ => rfl | ⟨1, _⟩ => rfl
  rw [el, feat_at, val_main_v26_apply, er]

/-- The second linear map: the features against the last 256 columns of the weight's row `g`. -/
theorem linJ_at (b : Fin 1024) (a : Fin 16) (g : Fin 512) :
    val_main_v29 (F := Ideal) x0 x1 x2 x3 x4 x5 x6 x7 x8 x9 (ix3 b a g)
      = refLin (refFeat (val_main_v6 (F := Ideal) x0 x2) x1 x3 x4 x5 x6 x7 x8) x9 hi256 b a g := by
  rw [val_main_v29_apply]
  unfold refLin
  refine Finset.sum_congr rfl fun f _ => ?_
  have el : lidx_main_v29 (ix3 b a g) f = ix3 b a f :=
    funext fun c => match c with | ⟨0, _⟩ => rfl | ⟨1, _⟩ => rfl | ⟨2, _⟩ => rfl
  have er : idx_main_v27 (ridx_main_v29 (ix3 b a g) f) = ix2 g (hi256 f) :=
    funext fun c => match c with | ⟨0, _⟩ => rfl | ⟨1, _⟩ => rfl
  rw [el, feat_at, val_main_v27_apply, er]

/-- The rectified pair sum of slots `i` and `j` at channel `g`. -/
theorem pair_at (b : Fin 1024) (i j : Fin 16) (g : Fin 512) :
    val_main_v38 (F := Ideal) x0 x1 x2 x3 x4 x5 x6 x7 x8 x9 x10 (ix4 b i j g)
      = max (refLin (refFeat (val_main_v6 (F := Ideal) x0 x2) x1 x3 x4 x5 x6 x7 x8) x9 lo256 b i g
          + refLin (refFeat (val_main_v6 (F := Ideal) x0 x2) x1 x3 x4 x5 x6 x7 x8) x9 hi256 b j g + x10 (ix1 g)) 0 := by
  have e1 : idx_main_v30 (idx_main_v32 (ix4 b i j g)) = ix3 b i g :=
    funext fun c => match c with | ⟨0, _⟩ => rfl | ⟨1, _⟩ => rfl | ⟨2, _⟩ => rfl
  have e2 : idx_main_v31 (idx_main_v33 (ix4 b i j g)) = ix3 b j g :=
    funext fun c => match c with | ⟨0, _⟩ => rfl | ⟨1, _⟩ => rfl | ⟨2, _⟩ => rfl
  have e3 : idx_main_v35 (idx_main_v36 (ix4 b i j g)) = ix1 g :=
    funext fun c => match c with | ⟨0, _⟩ => rfl
  rw [val_main_v38_apply, val_main_v37_apply, val_main_v34_apply, val_main_v32_apply, val_main_v30_apply,
    val_main_v33_apply, val_main_v31_apply, val_main_v36_apply, val_main_v35_apply, val_main_call1_v0_apply,
    val_main_call1_cst_apply, e1, e2, e3, linI_at, linJ_at]
  simp only [Ideal.maximumf_def, Ideal.addf_def, Ideal.ofBits_def, Ideal.ofBits_zero_f32]

/-- The shapes of the reduction over the second slot. -/
theorem red_j : Shape.Reduces S1024x16x16x512 [2] S1024x16x512 := by decide

/-- The shapes of the reduction over the first slot. -/
theorem red_i : Shape.Reduces S1024x16x512 [1] S1024x512 := by decide

/-- Inserting the second slot's coordinate `j` into `(b, i, g)` gives `(b, i, j, g)`. -/
theorem lift_j (b : Fin 1024) (i : Fin 16) (g : Fin 512) (j : Fin 16) :
    red_j.lift (ix3 b i g) j = ix4 b i j g :=
  funext fun c => Fin.ext (by
    match c with
    | ⟨0, _⟩ => rfl
    | ⟨1, _⟩ => rfl
    | ⟨2, _⟩ => rfl
    | ⟨3, _⟩ => rfl)

/-- Inserting the first slot's coordinate `i` into `(b, g)` gives `(b, i, g)`. -/
theorem lift_i (b : Fin 1024) (g : Fin 512) (i : Fin 16) :
    red_i.lift (ix2 b g) i = ix3 b i g :=
  funext fun c => Fin.ext (by
    match c with
    | ⟨0, _⟩ => rfl
    | ⟨1, _⟩ => rfl
    | ⟨2, _⟩ => rfl)

/-- The word `0x7F800000` is `+∞`. -/
theorem top_word : Ideal.ofBits .f32 0x7F800000#32 = (⊤ : EReal) := by
  simp [Ideal.ofBits, Ideal.ieee]

/-- The least, over the second slot, of the rectified pair sums. -/
theorem minJ_at (b : Fin 1024) (i : Fin 16) (g : Fin 512) :
    val_main_v39 (F := Ideal) x0 x1 x2 x3 x4 x5 x6 x7 x8 x9 x10 (ix3 b i g)
      = (Finset.univ : Finset (Fin 16)).fold min ⊤ fun j =>
          max (refLin (refFeat (val_main_v6 (F := Ideal) x0 x2) x1 x3 x4 x5 x6 x7 x8) x9 lo256 b i g
            + refLin (refFeat (val_main_v6 (F := Ideal) x0 x2) x1 x3 x4 x5 x6 x7 x8) x9 hi256 b j g + x10 (ix1 g)) 0 := by
  unfold val_main_v39
  rw [Host.reduce_eq_fold_single FloatOps.minimumf _ _ reducesTo_S1024x16x16x512_S1024x16x512_d2 red_j h_S_ (ix3 b i g)]
  have hf : (val_main_v38 (F := Ideal) x0 x1 x2 x3 x4 x5 x6 x7 x8 x9 x10 ∘ red_j.lift (ix3 b i g))
      = fun j : Fin 16 =>
          max (refLin (refFeat (val_main_v6 (F := Ideal) x0 x2) x1 x3 x4 x5 x6 x7 x8) x9 lo256 b i g
            + refLin (refFeat (val_main_v6 (F := Ideal) x0 x2) x1 x3 x4 x5 x6 x7 x8) x9 hi256 b j g + x10 (ix1 g)) 0 :=
    funext fun j : Fin 16 => by
      show val_main_v38 (F := Ideal) x0 x1 x2 x3 x4 x5 x6 x7 x8 x9 x10 (red_j.lift (ix3 b i g) j) = _
      rw [lift_j b i g j, pair_at]
  rw [hf, val_main_cst_1_apply, Ideal.ofBits_def, top_word]
  rfl

/-- The least, over the first slot, of the least over the second: the pair minimum. -/
theorem minI_at (b : Fin 1024) (g : Fin 512) :
    val_main_v40 (F := Ideal) x0 x1 x2 x3 x4 x5 x6 x7 x8 x9 x10 (ix2 b g)
      = pairMin (refLin (refFeat (val_main_v6 (F := Ideal) x0 x2) x1 x3 x4 x5 x6 x7 x8) x9 lo256)
          (refLin (refFeat (val_main_v6 (F := Ideal) x0 x2) x1 x3 x4 x5 x6 x7 x8) x9 hi256) x10 b g := by
  unfold val_main_v40
  rw [Host.reduce_eq_fold_single FloatOps.minimumf _ _ reducesTo_S1024x16x512_S1024x512_d1 red_i h_S_ (ix2 b g),
    Function.comp_def]
  have hf : (fun k => val_main_v39 (F := Ideal) x0 x1 x2 x3 x4 x5 x6 x7 x8 x9 x10 (red_i.lift (ix2 b g) k))
      = fun i : Fin 16 => (Finset.univ : Finset (Fin 16)).fold min ⊤ fun j =>
          max (refLin (refFeat (val_main_v6 (F := Ideal) x0 x2) x1 x3 x4 x5 x6 x7 x8) x9 lo256 b i g
            + refLin (refFeat (val_main_v6 (F := Ideal) x0 x2) x1 x3 x4 x5 x6 x7 x8) x9 hi256 b j g + x10 (ix1 g)) 0 :=
    funext fun i : Fin 16 => by rw [lift_i b g i, minJ_at]
  rw [hf, val_main_cst_2_apply, Ideal.ofBits_def, top_word]
  rfl

end Stages

/-- The reference's last stage at `(b, g)`: the least rectified pair sum of the textbook's features. -/
theorem ref_eq (x0 : IVec S1024x16 32) (x1 : FVec Ideal S1024x16x128 .f32) (x2 : FVec Ideal S1000x128 .f32)
    (x3 : FVec Ideal S256x256 .f32) (x4 x5 x6 x7 x8 : FVec Ideal S256 .f32) (x9 : FVec Ideal S512x512 .f32)
    (x10 : FVec Ideal S512 .f32) (b : Fin 1024) (g : Fin 512) :
    val_main_v40 (F := Ideal) x0 x1 x2 x3 x4 x5 x6 x7 x8 x9 x10 (ix2 b g)
      = refOut (val_main_v6 (F := Ideal) x0 x2) x1 x3 x4 x5 x6 x7 x8 x9 x10 b g := by
  unfold refOut
  exact minI_at x0 x1 x2 x3 x4 x5 x6 x7 x8 x9 x10 b g

end Cert.ReferenceIdeal.RefValue

end
-- ==== Proof.Claims.lean ====
/-
  The two programs compute one function. Under the precondition — every float input finite, and `σ² + ε > 0` at every
  filter, which is where the normalisation's `γ/√(σ² + ε)` is a number at all — the kernel's result array ends holding
  the tile's spelling of the fact block on the arrays its host code prepares (the launch's run, block by block), and
  the reference's ends holding the textbook's spelling (its run, stage by stage). The prepared arrays are the
  argument arrays re-laid (the weights' halves transposed, the normalisation folded), and with real `γ, β, μ, σ²` the
  folded affine map `y·s + (β - μ·s)` is `(y - μ)·s + β` for every extended real `y`; so the two spellings agree and
  both results are `answer` of the arguments. The role embeddings are the same table lookup in both programs and
  are never opened.
-/
import proofs.«138758_j28252294873241_1_alg».proof.Defs
import proofs.«138758_j28252294873241_1_alg».proof.Proof.Gen.Kernel.Frame
import proofs.«138758_j28252294873241_1_alg».proof.Proof.Gen.KernelIdeal.Frame
import proofs.«138758_j28252294873241_1_alg».proof.Proof.Gen.ReferenceIdeal.Run
import proofs.«138758_j28252294873241_1_alg».proof.Proof.Gen.ReferenceIdeal.Read
import proofs.«138758_j28252294873241_1_alg».proof.Proof.Blocks
import proofs.«138758_j28252294873241_1_alg».proof.Proof.HostArrays
import proofs.«138758_j28252294873241_1_alg».proof.Proof.Alg
import proofs.«138758_j28252294873241_1_alg».proof.Proof.PreFacts
import proofs.«138758_j28252294873241_1_alg».proof.Proof.RefValue

noncomputable section

open Idealize.ShloMosaic Idealize.ShloMosaic.TcCoe Idealize.SL.Sem Idealize.ShloMosaic.ValueIdx

namespace Cert.Proof.FactBlockClaims

open Cert.FactBlock

/-- The common result: the textbook fact block of the arguments, the role embeddings looked up in the table. -/
def answer (x0 : IVec ⟨2, ![1024, 16]⟩ 32) (x1 : FVec Ideal ⟨3, ![1024, 16, 128]⟩ .f32) (x2 : FVec Ideal ⟨2, ![1000, 128]⟩ .f32)
    (x3 : FVec Ideal ⟨2, ![256, 256]⟩ .f32) (x4 x5 x6 x7 x8 : FVec Ideal ⟨1, ![256]⟩ .f32) (x9 : FVec Ideal ⟨2, ![512, 512]⟩ .f32)
    (x10 : FVec Ideal ⟨1, ![512]⟩ .f32) : (⟨2, ![1024, 512]⟩ : Shape).Idx → EReal := fun i =>
  refOut (Cert.KernelIdeal.HostArrays.roleEmb x0 x2) x1 x3 x4 x5 x6 x7 x8 x9 x10 (i 0) (i 1)

/-- The table lookup is one term in both programs. -/
theorem lookup_eq (x0 : IVec ⟨2, ![1024, 16]⟩ 32) (x2 : FVec Ideal ⟨2, ![1000, 128]⟩ .f32) :
    Cert.ReferenceIdeal.Read.val_main_v6 (F := Ideal) x0 x2 = Cert.KernelIdeal.HostArrays.roleEmb x0 x2 := rfl

section Kernel

open Cert.KernelIdeal Cert.KernelIdeal.Gen Cert.KernelIdeal.Blocks Cert.KernelIdeal.HostArrays

variable (m : (ℓ : Loc nD τ sig) → Buf (Elt Ideal) ℓ)

/-- Under the precondition the launch's result is `answer` of the arguments. -/
theorem kernel_value (hpre : Cert.Pre_KernelIdeal (hPre_finite_inputs := Cert.Pre_finite_inputs.Gen.facts) m) (c : Dev nD) :
    launched m c = answer (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg6)) (m ((c : Thread nD τ).loc main_arg7)) (m ((c : Thread nD τ).loc main_arg8))
      (m ((c : Thread nD τ).loc main_arg9)) (m ((c : Thread nD τ).loc main_arg10)) := by
  obtain ⟨hγ, hβ, hμ, hv, hpos⟩ := of_pre _ _ _ _ _ _ _ _ _ _ _ (hpre c)
  have e7 : embRole m c = roleEmb (m ((c : Thread nD τ).loc main_arg0)) (m ((c : Thread nD τ).loc main_arg2)) := V_v7 m c
  have e8 : embVal m c = m ((c : Thread nD τ).loc main_arg1) := V_v8 m c
  have e4 : convBias m c = m ((c : Thread nD τ).loc main_arg4) := V_main_arg4 m c
  have e10 : chanBias m c = m ((c : Thread nD τ).loc main_arg10) := V_main_arg10 m c
  funext i
  unfold launched answer
  rw [e7, e8, e4, e10]
  exact tile_eq_ref _ _ (m ((c : Thread nD τ).loc main_arg3)) (m ((c : Thread nD τ).loc main_arg4))
    (m ((c : Thread nD τ).loc main_arg5)) (m ((c : Thread nD τ).loc main_arg6)) (m ((c : Thread nD τ).loc main_arg7))
    (m ((c : Thread nD τ).loc main_arg8)) (m ((c : Thread nD τ).loc main_arg9)) (m ((c : Thread nD τ).loc main_arg10))
    (halfRole m c) (halfVal m c) (bnScaleArr m c) (bnShiftArr m c) (linFirst m c) (linSecond m c)
    hγ hβ hμ hv hpos (V_v11 m c) (V_v14 m c) (V_v18 m c) (V_v20 m c) (V_v24 m c) (V_v26 m c) (i 0) (i 1)

end Kernel

/-! ## The claims -/

theorem frame_p : Cert.frame_Kernel (hKernel := Cert.Kernel.Gen.facts) (hPre_finite_inputs := Cert.Pre_finite_inputs.Gen.facts) :=
  fun m ρ _ => Cert.Kernel.Gen.frame m ρ

theorem frame_pi : Cert.frame_KernelIdeal (hKernelIdeal := Cert.KernelIdeal.Gen.facts) (hPre_finite_inputs := Cert.Pre_finite_inputs.Gen.facts) :=
  fun m ρ _ => Cert.KernelIdeal.Gen.frame m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- Both runs end with the result at `answer` of the (agreeing) arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => answer (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10)), ?_, ?_⟩
  · exact (θ_run Cert.KernelIdeal.defs _ _).mono
      (fun r h c => ⟨(h c).1.trans (kernel_value m hpre c), (h c).2⟩) (Cert.KernelIdeal.Blocks.run m ρ)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v40_eq]
    obtain ⟨h0, h1, h2, h3, h4, h5, h6, h7, h8, h9, h10⟩ := hagree c
    rw [h0, h1, h2, h3, h4, h5, h6, h7, h8, h9, h10]
    funext i
    obtain ⟨b, g, rfl⟩ : ∃ (b : Fin 1024) (g : Fin 512), i = ix2 b g := ⟨i 0, i 1, eq_ix2 i⟩
    rw [Cert.ReferenceIdeal.RefValue.ref_eq, lookup_eq]
    rfl

end Cert.Proof.FactBlockClaims

end
-- ==== Proof.lean ====
/-
  The certificate of the fact block: a batch-tiled kernel (16 tiles of 64 facts; per tile two half-convolutions, a folded
  batch normalisation, a rectifier, two linear maps and sixteen unrolled rounds of a pair minimum) against the textbook
  program (one convolution over the joined embeddings, the normalisation written out, two contractions, a double
  minimum over the 16 × 16 slot pairs).

  Over the extended reals the two are one function wherever the normalisation's scale `γ/√(σ² + ε)` is a real number,
  that is under `σ² + ε > 0` with finite parameters: the kernel folds `(y - μ)·s + β` to `y·s + (β - μ·s)`, an identity
  for real `μ, s, β` and any extended real `y`, and splits the contraction over the 256 joined coordinates into its
  two halves; the rest is re-laying (transposes, slices, the 64 × 16 slots as 1024 rows) and the order of a minimum.

  The frames are the launch's and the reference's runs; the idealisation rewrote nothing, so `preserves` is trivial.
-/
import proofs.«138758_j28252294873241_1_alg».proof.Defs
import proofs.«138758_j28252294873241_1_alg».proof.Proof.Gen.Kernel
import proofs.«138758_j28252294873241_1_alg».proof.Proof.Gen.Kernel.Skeleton
import proofs.«138758_j28252294873241_1_alg».proof.Proof.Gen.Kernel.Launch
import proofs.«138758_j28252294873241_1_alg».proof.Proof.Gen.Kernel.Points
import proofs.«138758_j28252294873241_1_alg».proof.Proof.Gen.Kernel.Frame
import proofs.«138758_j28252294873241_1_alg».proof.Proof.Gen.KernelIdeal
import proofs.«138758_j28252294873241_1_alg».proof.Proof.Gen.KernelIdeal.Skeleton
import proofs.«138758_j28252294873241_1_alg».proof.Proof.Gen.KernelIdeal.Launch
import proofs.«138758_j28252294873241_1_alg».proof.Proof.Gen.KernelIdeal.Points
import proofs.«138758_j28252294873241_1_alg».proof.Proof.Gen.KernelIdeal.Frame
import proofs.«138758_j28252294873241_1_alg».proof.Proof.Gen.ReferenceIdeal
import proofs.«138758_j28252294873241_1_alg».proof.Proof.Gen.Pre_finite_inputs
import proofs.«138758_j28252294873241_1_alg».proof.Proof.Gen.KernelIdeal.Value
import proofs.«138758_j28252294873241_1_alg».proof.Proof.Gen.ReferenceIdeal.Run
import proofs.«138758_j28252294873241_1_alg».proof.Proof.Gen.ReferenceIdeal.Read
import proofs.«138758_j28252294873241_1_alg».proof.Proof.Claims
import Idealize.ShloMosaic.Adequacy
import Idealize.ShloMosaic.Init

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs.Gen.facts,
  Cert.Proof.FactBlockClaims.frame_p, Cert.Proof.FactBlockClaims.frame_pi, Cert.Proof.FactBlockClaims.frame_ri, trivial,
  Cert.Proof.FactBlockClaims.algebraic⟩

end Cert.Proof

end
